-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x129x512 : Shape := ⟨3, ![256, 129, 512]⟩
abbrev S512x512 : Shape := ⟨2, ![512, 512]⟩
abbrev S512 : Shape := ⟨1, ![512]⟩
abbrev S8x64 : Shape := ⟨2, ![8, 64]⟩
abbrev S8x129x15 : Shape := ⟨3, ![8, 129, 15]⟩
abbrev S1 : Shape := ⟨1, ![1]⟩
abbrev S_ : Shape := ⟨0, ![]⟩

class Facts : Prop where
  bcast_S_S256x129x512 : S_.BroadcastsInDim S256x129x512 (![] : Fin 0 → Fin S256x129x512.rank)
  reducesTo_S256x129x512_S_d0_1_2 : S256x129x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S8x64 : S_.BroadcastsInDim S8x64 (![] : Fin 0 → Fin S8x64.rank)
  reducesTo_S8x64_S_d0_1 : S8x64.ReducesTo [0, 1] S_
  bcast_S_S8x129x15 : S_.BroadcastsInDim S8x129x15 (![] : Fin 0 → Fin S8x129x15.rank)
  reducesTo_S8x129x15_S_d0_1_2 : S8x129x15.ReducesTo [0, 1, 2] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S8x129x15 .f32) (main_v50 : FVec F S8x129x15 .f32) : IVec S_ 1 :=
  let main_v51 : IVec S8x129x15 1 := cmpf .olt main_v49 main_v50
  let main_c_19 : IVec S_ 1 := constantI S_ 1 1#1
  let main_v52 : IVec S_ 1 := (fun x v => Host.reduce IntOp.andi x v reducesTo_S8x129x15_S_d0_1_2 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S512 .f32) (main_arg8 : FVec F S8x64 .f32) (main_arg9 : FVec F S8x129x15 .f32) (main_arg10 : FVec F S8x129x15 .f32) (main_arg11 : FVec F S1 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S8x64 .f32 := Host.absf main_arg8
  let main_cst_14 : FVec F S_ .f32 := constant S_ .f32 0x7F800000#32
  let main_v40 : FVec F S8x64 .f32 := broadcastInDim S8x64 ![] bcast_S_S8x64 main_cst_14
  let main_v41 : IVec S8x64 1 := cmpf .olt main_v39 main_v40
  let main_c_15 : IVec S_ 1 := constantI S_ 1 1#1
  let main_v42 : IVec S_ 1 := (fun x v => Host.reduce IntOp.andi x v reducesTo_S8x64_S_d0_1 h_S_) main_v41 main_c_15
  let main_v43 : IVec S_ 1 := andi main_v38 main_v42
  let main_v44 : FVec F S8x129x15 .f32 := Host.absf main_arg9
  let main_cst_16 : FVec F S_ .f32 := constant S_ .f32 0x7F800000#32
  let main_v45 : FVec F S8x129x15 .f32 := broadcastInDim S8x129x15 ![] bcast_S_S8x129x15 main_cst_16
  let main_v46 : IVec S8x129x15 1 := cmpf .olt main_v44 main_v45
  let main_c_17 : IVec S_ 1 := constantI S_ 1 1#1
  let main_v47 : IVec S_ 1 := (fun x v => Host.reduce IntOp.andi x v reducesTo_S8x129x15_S_d0_1_2 h_S_) main_v46 main_c_17
  let main_v48 : IVec S_ 1 := andi main_v43 main_v47
  let main_v49 : FVec F S8x129x15 .f32 := Host.absf main_arg10
  let main_cst_18 : FVec F S_ .f32 := constant S_ .f32 0x7F800000#32
  let main_v50 : FVec F S8x129x15 .f32 := broadcastInDim S8x129x15 ![] bcast_S_S8x129x15 main_cst_18
  fn_part3 (F := F) main_arg11 main_v48 main_v49 main_v50

def fn_part1 {F : FTy → Type} [FloatOps F] (main_arg4 : FVec F S512x512 .f32) (main_arg5 : FVec F S512 .f32) (main_arg6 : FVec F S512x512 .f32) (main_arg7 : FVec F S512 .f32) (main_arg8 : FVec F S8x64 .f32) (main_arg9 : FVec F S8x129x15 .f32) (main_arg10 : FVec F S8x129x15 .f32) (main_arg11 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S256x129x512 .f32) (main_arg1 : FVec F S256x129x512 .f32) (main_arg2 : FVec F S512x512 .f32) (main_arg3 : FVec F S512 .f32) (main_arg4 : FVec F S512x512 .f32) (main_arg5 : FVec F S512 .f32) (main_arg6 : FVec F S512x512 .f32) (main_arg7 : FVec F S512 .f32) (main_arg8 : FVec F S8x64 .f32) (main_arg9 : FVec F S8x129x15 .f32) (main_arg10 : FVec F S8x129x15 .f32) (main_arg11 : FVec F S1 .f32) : IVec S_ 1 :=
  let main_v0 : FVec F S256x129x512 .f32 := Host.absf main_arg0
  let main_cst : FVec F S_ .f32 := constant S_ .f32 0x7F800000#32
  let main_v1 : FVec F S256x129x512 .f32 := broadcastInDim S256x129x512 ![] bcast_S_S256x129x512 main_cst
  let main_v2 : IVec S256x129x512 1 := cmpf .olt main_v0 main_v1
  let main_c : IVec S_ 1 := constantI S_ 1 1#1
  let main_v3 : IVec S_ 1 := (fun x v => Host.reduce IntOp.andi x v reducesTo_S256x129x512_S_d0_1_2 h_S_) main_v2 main_c
  let main_v4 : FVec F S256x129x512 .f32 := Host.absf main_arg1
  let main_cst_0 : FVec F S_ .f32 := constant S_ .f32 0x7F800000#32
  let main_v5 : FVec F S256x129x512 .f32 := broadcastInDim S256x129x512 ![] bcast_S_S256x129x512 main_cst_0
  let main_v6 : IVec S256x129x512 1 := cmpf .olt main_v4 main_v5
  let main_c_1 : IVec S_ 1 := constantI S_ 1 1#1
  let main_v7 : IVec S_ 1 := (fun x v => Host.reduce IntOp.andi x v reducesTo_S256x129x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_v13 main_v16
-- ==== Kernel.lean ====
abbrev S256x129x512 : Shape := ⟨3, ![256, 129, 512]⟩
abbrev S512x512 : Shape := ⟨2, ![512, 512]⟩
abbrev S512 : Shape := ⟨1, ![512]⟩
abbrev S8x64 : Shape := ⟨2, ![8, 64]⟩
abbrev S8x129x15 : Shape := ⟨3, ![8, 129, 15]⟩
abbrev S1 : Shape := ⟨1, ![1]⟩
abbrev S_ : Shape := ⟨0, ![]⟩
abbrev S8x129 : Shape := ⟨2, ![8, 129]⟩
abbrev S8x129x1 : Shape := ⟨3, ![8, 129, 1]⟩
abbrev S8x129x129 : Shape := ⟨3, ![8, 129, 129]⟩
abbrev S129x129 : Shape := ⟨2, ![129, 129]⟩
abbrev S1x129x129 : Shape := ⟨3, ![1, 129, 129]⟩
abbrev S129 : Shape := ⟨1, ![129]⟩
abbrev S1x1x129 : Shape := ⟨3, ![1, 1, 129]⟩
abbrev S256x8x129x129 : Shape := ⟨4, ![256, 8, 129, 129]⟩
abbrev S1x129x512 : Shape := ⟨3, ![1, 129, 512]⟩
abbrev S1x8x129x129 : Shape := ⟨4, ![1, 8, 129, 129]⟩
abbrev S129x512 : Shape := ⟨2, ![129, 512]⟩
abbrev S1x512 : Shape := ⟨2, ![1, 512]⟩
abbrev S129x8x64 : Shape := ⟨3, ![129, 8, 64]⟩
abbrev S8x129x64 : Shape := ⟨3, ![8, 129, 64]⟩
abbrev S8x1x64 : Shape := ⟨3, ![8, 1, 64]⟩

abbrev nBuf : Space → Nat
  | .hbm => 80
  | .vmem => 16
  | .smem => 0
  | _ => 0

abbrev bufTy : (tb : Table) → Fin (tcTables nBuf tb) → BufTy
  | .hbm, ⟨0, _⟩ => ⟨S256x129x512, .f32⟩
  | .hbm, ⟨1, _⟩ => ⟨S256x129x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S8x64, .f32⟩
  | .hbm, ⟨9, _⟩ => ⟨S8x129x15, .f32⟩
  | .hbm, ⟨10, _⟩ => ⟨S8x129x15, .f32⟩
  | .hbm, ⟨11, _⟩ => ⟨S1, .f32⟩
  | .hbm, ⟨12, _⟩ => ⟨S8x129x15, .f32⟩
  | .hbm, ⟨13, _⟩ => ⟨S_, .f32⟩
  | .hbm, ⟨14, _⟩ => ⟨S8x129, .f32⟩
  | .hbm, ⟨15, _⟩ => ⟨S8x129x1, .f32⟩
  | .hbm, ⟨16, _⟩ => ⟨S8x129x1, .f32⟩
  | .hbm, ⟨17, _⟩ => ⟨S_, .f32⟩
  | .hbm, ⟨18, _⟩ => ⟨S8x129x1, .f32⟩
  | .hbm, ⟨19, _⟩ => ⟨S8x129x1, .f32⟩
  | .hbm, ⟨20, _⟩ => ⟨S8x129x15, .f32⟩
  | .hbm, ⟨21, _⟩ => ⟨S8x129x15, .f32⟩
  | .hbm, ⟨22, _⟩ => ⟨S8x129x15, .f32⟩
  | .hbm, ⟨23, _⟩ => ⟨S_, .f32⟩
  | .hbm, ⟨24, _⟩ => ⟨S8x129, .f32⟩
  | .hbm, ⟨25, _⟩ => ⟨S8x129x1, .f32⟩
  | .hbm, ⟨26, _⟩ => ⟨S8x129x1, .f32⟩
  | .hbm, ⟨27, _⟩ => ⟨S_, .f32⟩
  | .hbm, ⟨28, _⟩ => ⟨S8x129x1, .f32⟩
  | .hbm, ⟨29, _⟩ => ⟨S8x129x1, .f32⟩
  | .hbm, ⟨30, _⟩ => ⟨S8x129x15, .f32⟩
  | .hbm, ⟨31, _⟩ => ⟨S8x129x15, .f32⟩
  | .hbm, ⟨32, _⟩ => ⟨S8x129x129, .f32⟩
  | .hbm, ⟨33, _⟩ => ⟨S_, .f32⟩
  | .hbm, ⟨34, _⟩ => ⟨S8x129x129, .f32⟩
  | .hbm, ⟨35, _⟩ => ⟨S8x129x129, .f32⟩
  | .hbm, ⟨36, _⟩ => ⟨S8x129x129, .f32⟩
  | .hbm, ⟨37, _⟩ => ⟨S8x129x129, .f32⟩
  | .hbm, ⟨38, _⟩ => ⟨S_, .f32⟩
  | .hbm, ⟨39, _⟩ => ⟨S8x129x129, .f32⟩
  | .hbm, ⟨40, _⟩ => ⟨S8x129x129, .f32⟩
  | .hbm, ⟨41, _⟩ => ⟨S_, .f32⟩
  | .hbm, ⟨42, _⟩ => ⟨S8x129x129, .f32⟩
  | .hbm, ⟨43, _⟩ => ⟨S8x129x129, .f32⟩
  | .hbm, ⟨44, _⟩ => ⟨S129x129, .i32⟩
  | .hbm, ⟨45, _⟩ => ⟨S129x129, .i32⟩
  | .hbm, ⟨46, _⟩ => ⟨S_, .i32⟩
  | .hbm, ⟨47, _⟩ => ⟨S129x129, .i32⟩
  | .hbm, ⟨48, _⟩ => ⟨S129x129, .i32⟩
  | .hbm, ⟨49, _⟩ => ⟨S129x129, .i1⟩
  | .hbm, ⟨50, _⟩ => ⟨S129x129, .f32⟩
  | .hbm, ⟨51, _⟩ => ⟨S_, .f32⟩
  | .hbm, ⟨52, _⟩ => ⟨S129x129, .f32⟩
  | .hbm, ⟨53, _⟩ => ⟨S129x129, .f32⟩
  | .hbm, ⟨54, _⟩ => ⟨S1x129x129, .f32⟩
  | .hbm, ⟨55, _⟩ => ⟨S8x129x129, .f32⟩
  | .hbm, ⟨56, _⟩ => ⟨S8x129x129, .f32⟩
  | .hbm, ⟨57, _⟩ => ⟨S_, .f32⟩
  | .hbm, ⟨58, _⟩ => ⟨S129, .f32⟩
  | .hbm, ⟨59, _⟩ => ⟨S_, .i32⟩
  | .hbm, ⟨60, _⟩ => ⟨S1, .i32⟩
  | .hbm, ⟨61, _⟩ => ⟨S_, .f32⟩
  | .hbm, ⟨62, _⟩ => ⟨S129, .f32⟩
  | .hbm, ⟨63, _⟩ => ⟨S1x1x129, .f32⟩
  | .hbm, ⟨64, _⟩ => ⟨S8x129x129, .f32⟩
  | .hbm, ⟨65, _⟩ => ⟨S8x129x129, .f32⟩
  | .hbm, ⟨66, _⟩ => ⟨S_, .f32⟩
  | .hbm, ⟨67, _⟩ => ⟨S8x129x129, .f32⟩
  | .hbm, ⟨68, _⟩ => ⟨S8x129x129, .i1⟩
  | .hbm, ⟨69, _⟩ => ⟨S8x129x129, .f32⟩
  | .hbm, ⟨70, _⟩ => ⟨S8x129x129, .f32⟩
  | .hbm, ⟨71, _⟩ => ⟨S8x129x129, .f32⟩
  | .hbm, ⟨72, _⟩ => ⟨S_, .f32⟩
  | .hbm, ⟨73, _⟩ => ⟨S8x129x129, .f32⟩
  | .hbm, ⟨74, _⟩ => ⟨S8x129x129, .f32⟩
  | .hbm, ⟨75, _⟩ => ⟨S_, .f32⟩
  | .hbm, ⟨76, _⟩ => ⟨S8x129x129, .f32⟩
  | .hbm, ⟨77, _⟩ => ⟨S8x129x129, .f32⟩
  | .hbm, ⟨78, _⟩ => ⟨S256x129x512, .f32⟩
  | .hbm, ⟨79, _⟩ => ⟨S256x8x129x129, .f32⟩
  | .local _ .vmem, ⟨0, _⟩ => ⟨S1x129x512, .f32⟩
  | .local _ .vmem, ⟨1, _⟩ => ⟨S1x129x512, .f32⟩
  | .local _ .vmem, ⟨2, _⟩ => ⟨S1x129x512, .f32⟩
  | .local _ .vmem, ⟨3, _⟩ => ⟨S1x129x512, .f32⟩
  | .local _ .vmem, ⟨4, _⟩ => ⟨S512x512, .f32⟩
  | .local _ .vmem, ⟨5, _⟩ => ⟨S512, .f32⟩
  | .local _ .vmem, ⟨6, _⟩ => ⟨S512x512, .f32⟩
  | .local _ .vmem, ⟨7, _⟩ => ⟨S512, .f32⟩
  | .local _ .vmem, ⟨8, _⟩ => ⟨S512x512, .f32⟩
  | .local _ .vmem, ⟨9, _⟩ => ⟨S512, .f32⟩
  | .local _ .vmem, ⟨10, _⟩ => ⟨S8x64, .f32⟩
  | .local _ .vmem, ⟨11, _⟩ => ⟨S8x129x129, .f32⟩
  | .local _ .vmem, ⟨12, _⟩ => ⟨S1x129x512, .f32⟩
  | .local _ .vmem, ⟨13, _⟩ => ⟨S1x129x512, .f32⟩
  | .local _ .vmem, ⟨14, _⟩ => ⟨S1x8x129x129, .f32⟩
  | .local _ .vmem, ⟨15, _⟩ => ⟨S1x8x129x129, .f32⟩
  | _, _ => ⟨S256x129x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call1_v0 : Ref sig .tc := ⟨.hbm, 22, rfl⟩
abbrev main_call1_cst : Ref sig .tc := ⟨.hbm, 23, rfl⟩
abbrev main_call1_v1 : Ref sig .tc := ⟨.hbm, 24, rfl⟩
abbrev main_call1_v2 : Ref sig .tc := ⟨.hbm, 25, rfl⟩
abbrev main_v5 : Ref sig .tc := ⟨.hbm, 26, rfl⟩
abbrev main_cst_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_1 : Ref sig .tc := ⟨.hbm, 38, rfl⟩
abbrev main_v16 : Ref sig .tc := ⟨.hbm, 39, rfl⟩
abbrev main_v17 : Ref sig .tc := ⟨.hbm, 40, rfl⟩
abbrev main_cst_2 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_3 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_4 : Ref sig .tc := ⟨.hbm, 57, rfl⟩
abbrev main_v31 : Ref sig .tc := ⟨.hbm, 58, rfl⟩
abbrev main_c_5 : Ref sig .tc := ⟨.hbm, 59, rfl⟩
abbrev main_v32 : Ref sig .tc := ⟨.hbm, 60, rfl⟩
abbrev main_cst_6 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_7 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_8 : Ref sig .tc := ⟨.hbm, 72, rfl⟩
abbrev main_v42 : Ref sig .tc := ⟨.hbm, 73, rfl⟩
abbrev main_v43 : Ref sig .tc := ⟨.hbm, 74, rfl⟩
abbrev main_cst_9 : Ref sig .tc := ⟨.hbm, 75, rfl⟩
abbrev main_v44 : Ref sig .tc := ⟨.hbm, 76, rfl⟩
abbrev main_v45 : Ref sig .tc := ⟨.hbm, 77, rfl⟩
abbrev main_v46_0 : Ref sig .tc := ⟨.hbm, 78, rfl⟩
abbrev main_v46_1 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x129x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x129x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x129x129 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x129x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x129x129 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  reducesTo_S8x129x15_S8x129_d2 : S8x129x15.ReducesTo [2] S8x129
  h_S_ : 0 < S_.numel
  bcast_S8x129_S8x129x1_0_1 : S8x129.BroadcastsInDim S8x129x1 (![0, 1] : Fin 2 → Fin S8x129x1.rank)
  bcast_S_S8x129x1 : S_.BroadcastsInDim S8x129x1 (![] : Fin 0 → Fin S8x129x1.rank)
  bcast_S8x129x1_S8x129x15_0_1_2 : S8x129x1.BroadcastsInDim S8x129x15 (![0, 1, 2] : Fin 3 → Fin S8x129x15.rank)
  shapeCasts_S1_S_ : S1.ShapeCasts S_
  bcast_S_S8x129x129 : S_.BroadcastsInDim S8x129x129 (![] : Fin 0 → Fin S8x129x129.rank)
  bcast_S_S129x129 : S_.BroadcastsInDim S129x129 (![] : Fin 0 → Fin S129x129.rank)
  bcast_S129x129_S1x129x129_1_2 : S129x129.BroadcastsInDim S1x129x129 (![1, 2] : Fin 2 → Fin S1x129x129.rank)
  bcast_S1x129x129_S8x129x129_0_1_2 : S1x129x129.BroadcastsInDim S8x129x129 (![0, 1, 2] : Fin 3 → Fin S8x129x129.rank)
  bcast_S_S129 : S_.BroadcastsInDim S129 (![] : Fin 0 → Fin S129.rank)
  bcast_S_S1 : S_.BroadcastsInDim S1 (![] : Fin 0 → Fin S1.rank)
  bcast_S129_S1x1x129_2 : S129.BroadcastsInDim S1x1x129 (![2] : Fin 1 → Fin S1x1x129.rank)
  bcast_S1x1x129_S8x129x129_0_1_2 : S1x1x129.BroadcastsInDim S8x129x129 (![0, 1, 2] : Fin 3 → Fin S8x129x129.rank)
  inb_S1x129x512_S1x129x512_0_0_0 : ∀ a, (![0, 0, 0] : Fin 3 → Nat) a + S1x129x512.size a ≤ S1x129x512.size a
  h_S1x129x512 : 0 < S1x129x512.numel
  shapeCasts_S1x129x512_S129x512 : S1x129x512.ShapeCasts S129x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S512_S512_0 : ∀ a, (![0] : Fin 1 → Nat) a + S512.size a ≤ S512.size a
  h_S512 : 0 < S512.numel
  inb_S8x64_S8x64_0_0 : ∀ a, (![0, 0] : Fin 2 → Nat) a + S8x64.size a ≤ S8x64.size a
  h_S8x64 : 0 < S8x64.numel
  inb_S8x129x129_S8x129x129_0_0_0 : ∀ a, (![0, 0, 0] : Fin 3 → Nat) a + S8x129x129.size a ≤ S8x129x129.size a
  h_S8x129x129 : 0 < S8x129x129.numel
  shapeCasts_S8x129x129_S8x129x129 : S8x129x129.ShapeCasts S8x129x129
  transposes_S512x512_p1_0_S512x512 : S512x512.Transposes [1, 0] S512x512
  shapeCasts_S512_S1x512 : S512.ShapeCasts S1x512
  broadcasts_S1x512_S129x512 : S1x512.Broadcasts S129x512
  shapeCasts_S129x512_S129x8x64 : S129x512.ShapeCasts S129x8x64
  transposes_S129x8x64_p1_0_2_S8x129x64 : S129x8x64.Transposes [1, 0, 2] S8x129x64
  shapeCasts_S8x64_S8x1x64 : S8x64.ShapeCasts S8x1x64
  broadcasts_S8x1x64_S8x129x64 : S8x1x64.Broadcasts S8x129x64
  reduces_S8x129x129_S8x129 : S8x129x129.Reduces [2] S8x129
  shapeCasts_S8x129_S8x129x1 : S8x129.ShapeCasts S8x129x1
  broadcasts_S8x129x1_S8x129x129 : S8x129x1.Broadcasts S8x129x129
  transposes_S8x129x64_p1_0_2_S129x8x64 : S8x129x64.Transposes [1, 0, 2] S129x8x64
  shapeCasts_S129x8x64_S129x512 : S129x8x64.ShapeCasts S129x512
  shapeCasts_S129x512_S1x129x512 : S129x512.ShapeCasts S1x129x512
  inb_S1x8x129x129_S1x8x129x129_0_0_0_0 : ∀ a, (![0, 0, 0, 0] : Fin 4 → Nat) a + S1x8x129x129.size a ≤ S1x8x129x129.size a
  h_S1x8x129x129 : 0 < S1x8x129x129.numel
  shapeCasts_S1x8x129x129_S8x129x129 : S1x8x129x129.ShapeCasts S8x129x129
  shapeCasts_S8x129x129_S1x8x129x129 : S8x129x129.ShapeCasts S1x8x129x129
  dot_S8x129x15_S8x129x15_S8x129x129_2_2_1_1_0_0_wf : DotDims.WF S8x129x15 S8x129x15 S8x129x129 [2] [2] [1] [1] [0] [0]
  scatter_S129_S1_S__n_0_0_0_wf : ScatterDims.WF S129 S1 S_ [] [0] [0] 0
  dot_S129x512_S512x512_S129x512_1_0_0_1_n_n_wf : DotDims.WF S129x512 S512x512 S129x512 [1] [0] [0] [1] [] []
  dot_S8x129x64_S8x129x64_S8x129x129_2_2_1_1_0_0_wf : DotDims.WF S8x129x64 S8x129x64 S8x129x129 [2] [2] [1] [1] [0] [0]
  dot_S8x129x129_S8x129x64_S8x129x64_2_1_1_2_0_0_wf : DotDims.WF S8x129x129 S8x129x64 S8x129x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x129x512.size a ≤ S256x129x512.size a
  hwx0_0 : ∀ i : grid0.Coords, EltTy.bits .f32 = 32 ∨ (Rect.block (s := S256x129x512) S1x129x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x129x512.size a ≤ S256x129x512.size a
  hwx0_1 : ∀ i : grid0.Coords, EltTy.bits .f32 = 32 ∨ (Rect.block (s := S256x129x512) S1x129x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x64.size a ≤ S8x64.size a
  hwx0_8 : ∀ i : grid0.Coords, EltTy.bits .f32 = 32 ∨ (Rect.block (s := S8x64) S8x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S8x129x129.size a ≤ S8x129x129.size a
  hwx0_9 : ∀ i : grid0.Coords, EltTy.bits .f32 = 32 ∨ (Rect.block (s := S8x129x129) S8x129x129.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x129x512.size a ≤ S256x129x512.size a
  hwx0_10 : ∀ i : grid0.Coords, EltTy.bits .f32 = 32 ∨ (Rect.block (s := S256x129x512) S1x129x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x8x129x129.size a ≤ S256x8x129x129.size a
  hwx0_11 : ∀ i : grid0.Coords, EltTy.bits .f32 = 32 ∨ (Rect.block (s := S256x8x129x129) S1x8x129x129.size (cc0_transform_11 i) (hinb0_11 i)).WholeWords (EltTy.packing .f32)

variable [Facts₀]

def dot_S8x129x15_S8x129x15_S8x129x129_2_2_1_1_0_0 : DotDims S8x129x15 S8x129x15 S8x129x129 where
  lhsContracting := [2]
  rhsContracting := [2]
  lhsNonContracting := [1]
  rhsNonContracting := [1]
  lhsBatch := [0]
  rhsBatch := [0]
  wf := dot_S8x129x15_S8x129x15_S8x129x129_2_2_1_1_0_0_wf
def scatter_S129_S1_S__n_0_0_0 : ScatterDims S129 S1 S_ where
  updateWindowDims := []
  insertedWindowDims := [0]
  scatterDimsToOperandDims := [0]
  indexVectorDim := 0
  wf := scatter_S129_S1_S__n_0_0_0_wf
def dot_S129x512_S512x512_S129x512_1_0_0_1_n_n : DotDims S129x512 S512x512 S129x512 where
  lhsContracting := [1]
  rhsContracting := [0]
  lhsNonContracting := [0]
  rhsNonContracting := [1]
  lhsBatch := []
  rhsBatch := []
  wf := dot_S129x512_S512x512_S129x512_1_0_0_1_n_n_wf
def dot_S8x129x64_S8x129x64_S8x129x129_2_2_1_1_0_0 : DotDims S8x129x64 S8x129x64 S8x129x129 where
  lhsContracting := [2]
  rhsContracting := [2]
  lhsNonContracting := [1]
  rhsNonContracting := [1]
  lhsBatch := [0]
  rhsBatch := [0]
  wf := dot_S8x129x64_S8x129x64_S8x129x129_2_2_1_1_0_0_wf
def dot_S8x129x129_S8x129x64_S8x129x64_2_1_1_2_0_0 : DotDims S8x129x129 S8x129x64 S8x129x64 where
  lhsContracting := [2]
  rhsContracting := [1]
  lhsNonContracting := [1]
  rhsNonContracting := [2]
  lhsBatch := [0]
  rhsBatch := [0]
  wf := dot_S8x129x129_S8x129x64_S8x129x64_2_1_1_2_0_0_wf

abbrev win0_0 : Pipeline.Window sig grid0 :=
  Pipeline.Window.ofSpec (Memref.whole main_arg0) S1x129x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x129x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S8x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v45) S8x129x129.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v46_0) S1x129x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v46_1) S1x8x129x129.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S256x129x512 : Shape := ⟨3, ![256, 129, 512]⟩
abbrev S512x512 : Shape := ⟨2, ![512, 512]⟩
abbrev S512 : Shape := ⟨1, ![512]⟩
abbrev S8x64 : Shape := ⟨2, ![8, 64]⟩
abbrev S8x129x15 : Shape := ⟨3, ![8, 129, 15]⟩
abbrev S1 : Shape := ⟨1, ![1]⟩
abbrev S1x1x512 : Shape := ⟨3, ![1, 1, 512]⟩
abbrev S256x129x8x64 : Shape := ⟨4, ![256, 129, 8, 64]⟩
abbrev S256x8x129x64 : Shape := ⟨4, ![256, 8, 129, 64]⟩
abbrev S1x8x1x64 : Shape := ⟨4, ![1, 8, 1, 64]⟩
abbrev S256x8x129x129 : Shape := ⟨4, ![256, 8, 129, 129]⟩
abbrev S_ : Shape := ⟨0, ![]⟩
abbrev S8x129 : Shape := ⟨2, ![8, 129]⟩
abbrev S8x129x1 : Shape := ⟨3, ![8, 129, 1]⟩
abbrev S8x129x129 : Shape := ⟨3, ![8, 129, 129]⟩
abbrev S129x129 : Shape := ⟨2, ![129, 129]⟩
abbrev S1x129x129 : Shape := ⟨3, ![1, 129, 129]⟩
abbrev S129 : Shape := ⟨1, ![129]⟩
abbrev S1x1x129 : Shape := ⟨3, ![1, 1, 129]⟩
abbrev S1x8x129x129 : Shape := ⟨4, ![1, 8, 129, 129]⟩
abbrev S256x8x129 : Shape := ⟨3, ![256, 8, 129]⟩
abbrev S256x8x129x1 : Shape := ⟨4, ![256, 8, 129, 1]⟩

abbrev nBuf : Space → Nat
  | .hbm => 127
  | .vmem => 0
  | .smem => 0
  | _ => 0

abbrev bufTy : (tb : Table) → Fin (tcTables nBuf tb) → BufTy
  | .hbm, ⟨0, _⟩ => ⟨S256x129x512, .f32⟩
  | .hbm, ⟨1, _⟩ => ⟨S256x129x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S8x64, .f32⟩
  | .hbm, ⟨9, _⟩ => ⟨S8x129x15, .f32⟩
  | .hbm, ⟨10, _⟩ => ⟨S8x129x15, .f32⟩
  | .hbm, ⟨11, _⟩ => ⟨S1, .f32⟩
  | .hbm, ⟨12, _⟩ => ⟨S256x129x512, .f32⟩
  | .hbm, ⟨13, _⟩ => ⟨S1x1x512, .f32⟩
  | .hbm, ⟨14, _⟩ => ⟨S256x129x512, .f32⟩
  | .hbm, ⟨15, _⟩ => ⟨S256x129x512, .f32⟩
  | .hbm, ⟨16, _⟩ => ⟨S256x129x512, .f32⟩
  | .hbm, ⟨17, _⟩ => ⟨S1x1x512, .f32⟩
  | .hbm, ⟨18, _⟩ => ⟨S256x129x512, .f32⟩
  | .hbm, ⟨19, _⟩ => ⟨S256x129x512, .f32⟩
  | .hbm, ⟨20, _⟩ => ⟨S256x129x512, .f32⟩
  | .hbm, ⟨21, _⟩ => ⟨S1x1x512, .f32⟩
  | .hbm, ⟨22, _⟩ => ⟨S256x129x512, .f32⟩
  | .hbm, ⟨23, _⟩ => ⟨S256x129x512, .f32⟩
  | .hbm, ⟨24, _⟩ => ⟨S256x129x8x64, .f32⟩
  | .hbm, ⟨25, _⟩ => ⟨S256x8x129x64, .f32⟩
  | .hbm, ⟨26, _⟩ => ⟨S256x129x8x64, .f32⟩
  | .hbm, ⟨27, _⟩ => ⟨S256x8x129x64, .f32⟩
  | .hbm, ⟨28, _⟩ => ⟨S256x129x8x64, .f32⟩
  | .hbm, ⟨29, _⟩ => ⟨S256x8x129x64, .f32⟩
  | .hbm, ⟨30, _⟩ => ⟨S1x8x1x64, .f32⟩
  | .hbm, ⟨31, _⟩ => ⟨S256x8x129x64, .f32⟩
  | .hbm, ⟨32, _⟩ => ⟨S256x8x129x64, .f32⟩
  | .hbm, ⟨33, _⟩ => ⟨S256x8x129x129, .f32⟩
  | .hbm, ⟨34, _⟩ => ⟨S_, .f32⟩
  | .hbm, ⟨35, _⟩ => ⟨S256x8x129x129, .f32⟩
  | .hbm, ⟨36, _⟩ => ⟨S256x8x129x129, .f32⟩
  | .hbm, ⟨37, _⟩ => ⟨S8x129x15, .f32⟩
  | .hbm, ⟨38, _⟩ => ⟨S_, .f32⟩
  | .hbm, ⟨39, _⟩ => ⟨S8x129, .f32⟩
  | .hbm, ⟨40, _⟩ => ⟨S8x129x1, .f32⟩
  | .hbm, ⟨41, _⟩ => ⟨S8x129x1, .f32⟩
  | .hbm, ⟨42, _⟩ => ⟨S_, .f32⟩
  | .hbm, ⟨43, _⟩ => ⟨S8x129x1, .f32⟩
  | .hbm, ⟨44, _⟩ => ⟨S8x129x1, .f32⟩
  | .hbm, ⟨45, _⟩ => ⟨S8x129x15, .f32⟩
  | .hbm, ⟨46, _⟩ => ⟨S8x129x15, .f32⟩
  | .hbm, ⟨47, _⟩ => ⟨S8x129x15, .f32⟩
  | .hbm, ⟨48, _⟩ => ⟨S_, .f32⟩
  | .hbm, ⟨49, _⟩ => ⟨S8x129, .f32⟩
  | .hbm, ⟨50, _⟩ => ⟨S8x129x1, .f32⟩
  | .hbm, ⟨51, _⟩ => ⟨S8x129x1, .f32⟩
  | .hbm, ⟨52, _⟩ => ⟨S_, .f32⟩
  | .hbm, ⟨53, _⟩ => ⟨S8x129x1, .f32⟩
  | .hbm, ⟨54, _⟩ => ⟨S8x129x1, .f32⟩
  | .hbm, ⟨55, _⟩ => ⟨S8x129x15, .f32⟩
  | .hbm, ⟨56, _⟩ => ⟨S8x129x15, .f32⟩
  | .hbm, ⟨57, _⟩ => ⟨S8x129x129, .f32⟩
  | .hbm, ⟨58, _⟩ => ⟨S_, .f32⟩
  | .hbm, ⟨59, _⟩ => ⟨S8x129x129, .f32⟩
  | .hbm, ⟨60, _⟩ => ⟨S8x129x129, .f32⟩
  | .hbm, ⟨61, _⟩ => ⟨S8x129x129, .f32⟩
  | .hbm, ⟨62, _⟩ => ⟨S8x129x129, .f32⟩
  | .hbm, ⟨63, _⟩ => ⟨S_, .f32⟩
  | .hbm, ⟨64, _⟩ => ⟨S8x129x129, .f32⟩
  | .hbm, ⟨65, _⟩ => ⟨S8x129x129, .f32⟩
  | .hbm, ⟨66, _⟩ => ⟨S_, .f32⟩
  | .hbm, ⟨67, _⟩ => ⟨S8x129x129, .f32⟩
  | .hbm, ⟨68, _⟩ => ⟨S8x129x129, .f32⟩
  | .hbm, ⟨69, _⟩ => ⟨S129x129, .i32⟩
  | .hbm, ⟨70, _⟩ => ⟨S129x129, .i32⟩
  | .hbm, ⟨71, _⟩ => ⟨S_, .i32⟩
  | .hbm, ⟨72, _⟩ => ⟨S129x129, .i32⟩
  | .hbm, ⟨73, _⟩ => ⟨S129x129, .i32⟩
  | .hbm, ⟨74, _⟩ => ⟨S129x129, .i1⟩
  | .hbm, ⟨75, _⟩ => ⟨S129x129, .f32⟩
  | .hbm, ⟨76, _⟩ => ⟨S_, .f32⟩
  | .hbm, ⟨77, _⟩ => ⟨S129x129, .f32⟩
  | .hbm, ⟨78, _⟩ => ⟨S129x129, .f32⟩
  | .hbm, ⟨79, _⟩ => ⟨S1x129x129, .f32⟩
  | .hbm, ⟨80, _⟩ => ⟨S8x129x129, .f32⟩
  | .hbm, ⟨81, _⟩ => ⟨S8x129x129, .f32⟩
  | .hbm, ⟨82, _⟩ => ⟨S_, .f32⟩
  | .hbm, ⟨83, _⟩ => ⟨S129, .f32⟩
  | .hbm, ⟨84, _⟩ => ⟨S_, .i32⟩
  | .hbm, ⟨85, _⟩ => ⟨S1, .i32⟩
  | .hbm, ⟨86, _⟩ => ⟨S_, .f32⟩
  | .hbm, ⟨87, _⟩ => ⟨S129, .f32⟩
  | .hbm, ⟨88, _⟩ => ⟨S1x1x129, .f32⟩
  | .hbm, ⟨89, _⟩ => ⟨S8x129x129, .f32⟩
  | .hbm, ⟨90, _⟩ => ⟨S8x129x129, .f32⟩
  | .hbm, ⟨91, _⟩ => ⟨S_, .f32⟩
  | .hbm, ⟨92, _⟩ => ⟨S8x129x129, .f32⟩
  | .hbm, ⟨93, _⟩ => ⟨S8x129x129, .i1⟩
  | .hbm, ⟨94, _⟩ => ⟨S8x129x129, .f32⟩
  | .hbm, ⟨95, _⟩ => ⟨S8x129x129, .f32⟩
  | .hbm, ⟨96, _⟩ => ⟨S8x129x129, .f32⟩
  | .hbm, ⟨97, _⟩ => ⟨S_, .f32⟩
  | .hbm, ⟨98, _⟩ => ⟨S8x129x129, .f32⟩
  | .hbm, ⟨99, _⟩ => ⟨S8x129x129, .f32⟩
  | .hbm, ⟨100, _⟩ => ⟨S_, .f32⟩
  | .hbm, ⟨101, _⟩ => ⟨S8x129x129, .f32⟩
  | .hbm, ⟨102, _⟩ => ⟨S8x129x129, .f32⟩
  | .hbm, ⟨103, _⟩ => ⟨S1x8x129x129, .f32⟩
  | .hbm, ⟨104, _⟩ => ⟨S256x8x129x129, .f32⟩
  | .hbm, ⟨105, _⟩ => ⟨S256x8x129x129, .f32⟩
  | .hbm, ⟨106, _⟩ => ⟨S_, .f32⟩
  | .hbm, ⟨107, _⟩ => ⟨S256x8x129, .f32⟩
  | .hbm, ⟨108, _⟩ => ⟨S_, .f32⟩
  | .hbm, ⟨109, _⟩ => ⟨S256x8x129, .f32⟩
  | .hbm, ⟨110, _⟩ => ⟨S256x8x129, .f32⟩
  | .hbm, ⟨111, _⟩ => ⟨S256x8x129x1, .f32⟩
  | .hbm, ⟨112, _⟩ => ⟨S256x8x129x129, .f32⟩
  | .hbm, ⟨113, _⟩ => ⟨S256x8x129x129, .f32⟩
  | .hbm, ⟨114, _⟩ => ⟨S256x8x129x129, .f32⟩
  | .hbm, ⟨115, _⟩ => ⟨S_, .f32⟩
  | .hbm, ⟨116, _⟩ => ⟨S256x8x129, .f32⟩
  | .hbm, ⟨117, _⟩ => ⟨S256x8x129x1, .f32⟩
  | .hbm, ⟨118, _⟩ => ⟨S256x8x129x129, .f32⟩
  | .hbm, ⟨119, _⟩ => ⟨S256x8x129x129, .f32⟩
  | .hbm, ⟨120, _⟩ => ⟨S256x8x129x64, .f32⟩
  | .hbm, ⟨121, _⟩ => ⟨S256x129x8x64, .f32⟩
  | .hbm, ⟨122, _⟩ => ⟨S256x129x512, .f32⟩
  | .hbm, ⟨123, _⟩ => ⟨S256x129x512, .f32⟩
  | .hbm, ⟨124, _⟩ => ⟨S1x1x512, .f32⟩
  | .hbm, ⟨125, _⟩ => ⟨S256x129x512, .f32⟩
  | .hbm, ⟨126, _⟩ => ⟨S256x129x512, .f32⟩
  | _, _ => ⟨S256x129x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst : Ref sig .tc := ⟨.hbm, 34, rfl⟩
abbrev main_v22 : Ref sig .tc := ⟨.hbm, 35, rfl⟩
abbrev main_v23 : Ref sig .tc := ⟨.hbm, 36, rfl⟩
abbrev main_call0_v0 : Ref sig .tc := ⟨.hbm, 37, rfl⟩
abbrev main_call0_cst : Ref sig .tc := ⟨.hbm, 38, rfl⟩
abbrev main_call0_v1 : Ref sig .tc := ⟨.hbm, 39, rfl⟩
abbrev main_call0_v2 : Ref sig .tc := ⟨.hbm, 40, rfl⟩
abbrev main_v24 : Ref sig .tc := ⟨.hbm, 41, rfl⟩
abbrev main_cst_0 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call1_v0 : Ref sig .tc := ⟨.hbm, 47, rfl⟩
abbrev main_call1_cst : Ref sig .tc := ⟨.hbm, 48, rfl⟩
abbrev main_call1_v1 : Ref sig .tc := ⟨.hbm, 49, rfl⟩
abbrev main_call1_v2 : Ref sig .tc := ⟨.hbm, 50, rfl⟩
abbrev main_v29 : Ref sig .tc := ⟨.hbm, 51, rfl⟩
abbrev main_cst_1 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_2 : Ref sig .tc := ⟨.hbm, 63, rfl⟩
abbrev main_v40 : Ref sig .tc := ⟨.hbm, 64, rfl⟩
abbrev main_v41 : Ref sig .tc := ⟨.hbm, 65, rfl⟩
abbrev main_cst_3 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_4 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_5 : Ref sig .tc := ⟨.hbm, 82, rfl⟩
abbrev main_v55 : Ref sig .tc := ⟨.hbm, 83, rfl⟩
abbrev main_c_6 : Ref sig .tc := ⟨.hbm, 84, rfl⟩
abbrev main_v56 : Ref sig .tc := ⟨.hbm, 85, rfl⟩
abbrev main_cst_7 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_8 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_9 : Ref sig .tc := ⟨.hbm, 97, rfl⟩
abbrev main_v66 : Ref sig .tc := ⟨.hbm, 98, rfl⟩
abbrev main_v67 : Ref sig .tc := ⟨.hbm, 99, rfl⟩
abbrev main_cst_10 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_11 : Ref sig .tc := ⟨.hbm, 106, rfl⟩
abbrev main_v73 : Ref sig .tc := ⟨.hbm, 107, rfl⟩
abbrev main_cst_12 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_13 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S256x129x512_0_1_2 : S1x1x512.BroadcastsInDim S256x129x512 (![0, 1, 2] : Fin 3 → Fin S256x129x512.rank)
  shapeCasts_S256x129x512_S256x129x8x64 : S256x129x512.ShapeCasts S256x129x8x64
  transposes_S256x129x8x64_S256x8x129x64_0_2_1_3 : S256x129x8x64.Transposes [0, 2, 1, 3] S256x8x129x64
  bcast_S8x64_S1x8x1x64_1_3 : S8x64.BroadcastsInDim S1x8x1x64 (![1, 3] : Fin 2 → Fin S1x8x1x64.rank)
  bcast_S1x8x1x64_S256x8x129x64_0_1_2_3 : S1x8x1x64.BroadcastsInDim S256x8x129x64 (![0, 1, 2, 3] : Fin 4 → Fin S256x8x129x64.rank)
  bcast_S_S256x8x129x129 : S_.BroadcastsInDim S256x8x129x129 (![] : Fin 0 → Fin S256x8x129x129.rank)
  reducesTo_S8x129x15_S8x129_d2 : S8x129x15.ReducesTo [2] S8x129
  h_S_ : 0 < S_.numel
  bcast_S8x129_S8x129x1_0_1 : S8x129.BroadcastsInDim S8x129x1 (![0, 1] : Fin 2 → Fin S8x129x1.rank)
  bcast_S_S8x129x1 : S_.BroadcastsInDim S8x129x1 (![] : Fin 0 → Fin S8x129x1.rank)
  bcast_S8x129x1_S8x129x15_0_1_2 : S8x129x1.BroadcastsInDim S8x129x15 (![0, 1, 2] : Fin 3 → Fin S8x129x15.rank)
  shapeCasts_S1_S_ : S1.ShapeCasts S_
  bcast_S_S8x129x129 : S_.BroadcastsInDim S8x129x129 (![] : Fin 0 → Fin S8x129x129.rank)
  bcast_S_S129x129 : S_.BroadcastsInDim S129x129 (![] : Fin 0 → Fin S129x129.rank)
  bcast_S129x129_S1x129x129_1_2 : S129x129.BroadcastsInDim S1x129x129 (![1, 2] : Fin 2 → Fin S1x129x129.rank)
  bcast_S1x129x129_S8x129x129_0_1_2 : S1x129x129.BroadcastsInDim S8x129x129 (![0, 1, 2] : Fin 3 → Fin S8x129x129.rank)
  bcast_S_S129 : S_.BroadcastsInDim S129 (![] : Fin 0 → Fin S129.rank)
  bcast_S_S1 : S_.BroadcastsInDim S1 (![] : Fin 0 → Fin S1.rank)
  bcast_S129_S1x1x129_2 : S129.BroadcastsInDim S1x1x129 (![2] : Fin 1 → Fin S1x1x129.rank)
  bcast_S1x1x129_S8x129x129_0_1_2 : S1x1x129.BroadcastsInDim S8x129x129 (![0, 1, 2] : Fin 3 → Fin S8x129x129.rank)
  bcast_S8x129x129_S1x8x129x129_1_2_3 : S8x129x129.BroadcastsInDim S1x8x129x129 (![1, 2, 3] : Fin 3 → Fin S1x8x129x129.rank)
  bcast_S1x8x129x129_S256x8x129x129_0_1_2_3 : S1x8x129x129.BroadcastsInDim S256x8x129x129 (![0, 1, 2, 3] : Fin 4 → Fin S256x8x129x129.rank)
  reducesTo_S256x8x129x129_S256x8x129_d3 : S256x8x129x129.ReducesTo [3] S256x8x129
  bcast_S_S256x8x129 : S_.BroadcastsInDim S256x8x129 (![] : Fin 0 → Fin S256x8x129.rank)
  bcast_S256x8x129_S256x8x129x1_0_1_2 : S256x8x129.BroadcastsInDim S256x8x129x1 (![0, 1, 2] : Fin 3 → Fin S256x8x129x1.rank)
  bcast_S256x8x129x1_S256x8x129x129_0_1_2_3 : S256x8x129x1.BroadcastsInDim S256x8x129x129 (![0, 1, 2, 3] : Fin 4 → Fin S256x8x129x129.rank)
  transposes_S256x8x129x64_S256x129x8x64_0_2_1_3 : S256x8x129x64.Transposes [0, 2, 1, 3] S256x129x8x64
  shapeCasts_S256x129x8x64_S256x129x512 : S256x129x8x64.ShapeCasts S256x129x512
  dot_S256x129x512_S512x512_S256x129x512_2_1_01_0_n_n_wf : DotDims.WF S256x129x512 S512x512 S256x129x512 [2] [1] [0, 1] [0] [] []
  dot_S256x8x129x64_S256x8x129x64_S256x8x129x129_3_3_2_2_01_01_wf : DotDims.WF S256x8x129x64 S256x8x129x64 S256x8x129x129 [3] [3] [2] [2] [0, 1] [0, 1]
  dot_S8x129x15_S8x129x15_S8x129x129_2_2_1_1_0_0_wf : DotDims.WF S8x129x15 S8x129x15 S8x129x129 [2] [2] [1] [1] [0] [0]
  scatter_S129_S1_S__n_0_0_0_wf : ScatterDims.WF S129 S1 S_ [] [0] [0] 0
  dot_S256x8x129x129_S256x8x129x64_S256x8x129x64_3_2_2_3_01_01_wf : DotDims.WF S256x8x129x129 S256x8x129x64 S256x8x129x64 [3] [2] [2] [3] [0, 1] [0, 1]

variable [Facts₀]

def dot_S256x129x512_S512x512_S256x129x512_2_1_01_0_n_n : DotDims S256x129x512 S512x512 S256x129x512 where
  lhsContracting := [2]
  rhsContracting := [1]
  lhsNonContracting := [0, 1]
  rhsNonContracting := [0]
  lhsBatch := []
  rhsBatch := []
  wf := dot_S256x129x512_S512x512_S256x129x512_2_1_01_0_n_n_wf
def dot_S256x8x129x64_S256x8x129x64_S256x8x129x129_3_3_2_2_01_01 : DotDims S256x8x129x64 S256x8x129x64 S256x8x129x129 where
  lhsContracting := [3]
  rhsContracting := [3]
  lhsNonContracting := [2]
  rhsNonContracting := [2]
  lhsBatch := [0, 1]
  rhsBatch := [0, 1]
  wf := dot_S256x8x129x64_S256x8x129x64_S256x8x129x129_3_3_2_2_01_01_wf
def dot_S8x129x15_S8x129x15_S8x129x129_2_2_1_1_0_0 : DotDims S8x129x15 S8x129x15 S8x129x129 where
  lhsContracting := [2]
  rhsContracting := [2]
  lhsNonContracting := [1]
  rhsNonContracting := [1]
  lhsBatch := [0]
  rhsBatch := [0]
  wf := dot_S8x129x15_S8x129x15_S8x129x129_2_2_1_1_0_0_wf
def scatter_S129_S1_S__n_0_0_0 : ScatterDims S129 S1 S_ where
  updateWindowDims := []
  insertedWindowDims := [0]
  scatterDimsToOperandDims := [0]
  indexVectorDim := 0
  wf := scatter_S129_S1_S__n_0_0_0_wf
def dot_S256x8x129x129_S256x8x129x64_S256x8x129x64_3_2_2_3_01_01 : DotDims S256x8x129x129 S256x8x129x64 S256x8x129x64 where
  lhsContracting := [3]
  rhsContracting := [2]
  lhsNonContracting := [2]
  rhsNonContracting := [3]
  lhsBatch := [0, 1]
  rhsBatch := [0, 1]
  wf := dot_S256x8x129x129_S256x8x129x64_S256x8x129x64_3_2_2_3_01_01_wf

class Facts : Prop extends Facts₀ where

variable [Facts]
-- ==== Proof.Spec.lean ====
/-
  The mathematics both programs compute, stated once over plain extended-real functions.

  One batch element of the layer is a pair of [129, 512] row blocks `xh`, `xt`. Three affine maps
  `lin x W b = x Wᵀ + b` give the head, tail and value features. Column `h·64 + d` of a feature row is
  coordinate `d` of head `h` (`hd`). Head `h`'s score of row `n` against row `m` is
  `∑ d, (fh[n, hd h d] · rel[h, d]) · ft[m, hd h d]`; the logit is that score times 1/8 plus the additive
  topology mask; a row of logits goes through the max-shifted softmax `smax`; the probabilities mix
  the value rows head by head (`mix`), the heads are laid side by side again (`merged`) and a last affine
  map gives the output row. `attnP` is the probability tensor, `attnX` the output block.

  Everything is on the extended reals, with the operations the ideal instance gives them
  (`Ideal.exp`, `Ideal.div`); the two float literals that occur are kept as their bit patterns.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A [129, 512] block of rows. -/
abbrev Rows := Fin 129 → Fin 512 → EReal
/-- A [512, 512] weight, indexed (output column, input column). -/
abbrev Wt := Fin 512 → Fin 512 → EReal
/-- A bias row. -/
abbrev Bias := Fin 512 → EReal
/-- The per-head relation embedding, [8, 64]. -/
abbrev Rel := Fin 8 → Fin 64 → EReal
/-- A per-head [129, 129] table (mask, logits, probabilities). -/
abbrev Heads := Fin 8 → Fin 129 → Fin 129 → EReal
/-- Per-head [129, 64] values. -/
abbrev HeadVals := Fin 8 → Fin 129 → Fin 64 → EReal

/-- Column `h·64 + d` of a 512-wide row: coordinate `d` of head `h`. -/
def hd (h : Fin 8) (d : Fin 64) : Fin 512 := ⟨h.val * 64 + d.val, by have := h.isLt; have := d.isLt; omega⟩

/-- The head of column `k`. -/
def hOf (k : Fin 512) : Fin 8 := ⟨k.val / 64, by have := k.isLt; omega⟩
/-- The coordinate of column `k` inside its head. -/
def dOf (k : Fin 512) : Fin 64 := ⟨k.val % 64, Nat.mod_lt _ (by decide)⟩

theorem hd_hOf_dOf (k : Fin 512) : hd (hOf k) (dOf k) = k := by
  apply Fin.ext; show k.val / 64 * 64 + k.val % 64 = k.val; omega

theorem hOf_hd (h : Fin 8) (d : Fin 64) : hOf (hd h d) = h := by
  apply Fin.ext; show (h.val * 64 + d.val) / 64 = h.val; have := d.isLt; omega

theorem dOf_hd (h : Fin 8) (d : Fin 64) : dOf (hd h d) = d := by
  apply Fin.ext; show (h.val * 64 + d.val) % 64 = d.val; have := d.isLt; omega

/-- The affine map `x Wᵀ + b`, row by row. -/
def lin (x : Rows) (W : Wt) (b : Bias) : Rows := fun n e => (∑ k : Fin 512, x n k * W e k) + b e

/-- Head `h`'s bilinear score of row `n` of `fh` (scaled by the relation embedding) against row `m` of `ft`. -/
def score (fh ft : Rows) (rel : Rel) : Heads := fun h n m => ∑ d : Fin 64, (fh n (hd h d) * rel h d) * ft m (hd h d)

/-- The pattern of `-∞`, the neutral element both programs start a row maximum from. -/
abbrev ninf : EReal := Ideal.ofBits .f32 0xFF800000#32
/-- The pattern of `0.125`, the kernel's scale `1/√64`. -/
abbrev eighth : EReal := Ideal.ofBits .f32 0x3E000000#32
/-- The pattern of `8.0`, the reference's divisor `√64`. -/
abbrev eight : EReal := Ideal.ofBits .f32 0x41000000#32

/-- A row's maximum as both programs take it: the fold of `max` from `-∞`, then once more against `-∞`. -/
def rowmax (l : Fin 129 → EReal) : EReal := max ninf ((Finset.univ : Finset (Fin 129)).fold max ninf l)

/-- The max-shifted softmax of one row of logits. -/
def smax (l : Fin 129 → EReal) : Fin 129 → EReal := fun m =>
  Ideal.div (Ideal.exp (l m - rowmax l)) (∑ k : Fin 129, Ideal.exp (l k - rowmax l))

/-- The logits: the score times 1/8, plus the additive mask. -/
def logit (fh ft : Rows) (rel : Rel) (adj : Heads) : Heads := fun h n m => score fh ft rel h n m * eighth + adj h n m

/-- The attention probabilities of given head and tail features. -/
def prob (fh ft : Rows) (rel : Rel) (adj : Heads) : Heads := fun h n => smax (logit fh ft rel adj h n)

/-- The probabilities mix the value rows, head by head. -/
def mix (p : Heads) (fv : Rows) : HeadVals := fun h n d => ∑ m : Fin 129, p h n m * fv m (hd h d)

/-- The heads laid side by side again: column `k` is coordinate `dOf k` of head `hOf k`. -/
def merged (o : HeadVals) : Rows := fun n k => o (hOf k) n (dOf k)

/-- The probability tensor of one batch element. -/
def attnP (xh xt : Rows) (Wh : Wt) (bh : Bias) (rel : Rel) (adj : Heads) : Heads :=
  prob (lin xh Wh bh) (lin xt Wh bh) rel adj

/-- The output block of one batch element. -/
def attnX (xh xt : Rows) (Wh : Wt) (bh : Bias) (Wv : Wt) (bv : Bias) (Wo : Wt) (bo : Bias) (rel : Rel) (adj : Heads) : Rows :=
  lin (merged (mix (attnP xh xt Wh bh rel adj) (lin xt Wv bv))) Wo bo

/-! ## The two spellings of the scale -/

theorem ofBits_eight : eight = ((8 : ℝ) : EReal) := by
  simp [Ideal.ofBits, Ideal.ieee, -EReal.coe_mul]; norm_num

theorem ofBits_eighth : eighth = ((1 / 8 : ℝ) : EReal) := by
  simp [Ideal.ofBits, Ideal.ieee, -EReal.coe_mul]; norm_num

/-- Dividing by `8` is multiplying by `1/8`, on every extended real. -/
theorem div_eight (x : EReal) : Ideal.div x eight = x * eighth := by
  rw [ofBits_eight, ofBits_eighth]; exact Ideal.div_coe (by norm_num) x

/-! ## Arrays of the programs' literal shapes as the functions above -/

/-- Batch element `b` of a [256, 129, 512] array. -/
def sl3 (a : (⟨3, ![256, 129, 512]⟩ : Shape).Idx → EReal) (b : Fin 256) : Rows := fun n k => a (ix3 b n k)
/-- The one batch element of a [1, 129, 512] block. -/
def blk3 (a : (⟨3, ![1, 129, 512]⟩ : Shape).Idx → EReal) : Rows := fun n k => a (ix3 0 n k)
/-- A [512, 512] array. -/
def mat (w : (⟨2, ![512, 512]⟩ : Shape).Idx → EReal) : Wt := fun e k => w (ix2 e k)
/-- A [512] array. -/
def vec (v : (⟨1, ![512]⟩ : Shape).Idx → EReal) : Bias := fun e => v (ix1 e)
/-- An [8, 64] array. -/
def rel2 (r : (⟨2, ![8, 64]⟩ : Shape).Idx → EReal) : Rel := fun h d => r (ix2 h d)
/-- An [8, 129, 129] array. -/
def adj3 (a : (⟨3, ![8, 129, 129]⟩ : Shape).Idx → EReal) : Heads := fun h n m => a (ix3 h n m)

/-! ## The two results as whole-array functions of the arguments -/

/-- The probability output [256, 8, 129, 129]: entry (b, h, n, m) is `attnP` of batch element `b`. -/
def G11 (a0 a1 : (⟨3, ![256, 129, 512]⟩ : Shape).Idx → EReal) (a2 : (⟨2, ![512, 512]⟩ : Shape).Idx → EReal)
    (a3 : (⟨1, ![512]⟩ : Shape).Idx → EReal) (a8 : (⟨2, ![8, 64]⟩ : Shape).Idx → EReal)
    (adj : (⟨3, ![8, 129, 129]⟩ : Shape).Idx → EReal) : (⟨4, ![256, 8, 129, 129]⟩ : Shape).Idx → EReal := fun i =>
  attnP (sl3 a0 ⟨(i 0).val, (i 0).isLt⟩) (sl3 a1 ⟨(i 0).val, (i 0).isLt⟩) (mat a2) (vec a3) (rel2 a8) (adj3 adj)
    ⟨(i 1).val, (i 1).isLt⟩ ⟨(i 2).val, (i 2).isLt⟩ ⟨(i 3).val, (i 3).isLt⟩

/-- The output [256, 129, 512]: entry (b, n, e) is `attnX` of batch element `b`. -/
def G10 (a0 a1 : (⟨3, ![256, 129, 512]⟩ : Shape).Idx → EReal) (a2 : (⟨2, ![512, 512]⟩ : Shape).Idx → EReal)
    (a3 : (⟨1, ![512]⟩ : Shape).Idx → EReal) (a4 : (⟨2, ![512, 512]⟩ : Shape).Idx → EReal)
    (a5 : (⟨1, ![512]⟩ : Shape).Idx → EReal) (a6 : (⟨2, ![512, 512]⟩ : Shape).Idx → EReal)
    (a7 : (⟨1, ![512]⟩ : Shape).Idx → EReal) (a8 : (⟨2, ![8, 64]⟩ : Shape).Idx → EReal)
    (adj : (⟨3, ![8, 129, 129]⟩ : Shape).Idx → EReal) : (⟨3, ![256, 129, 512]⟩ : Shape).Idx → EReal := fun i =>
  attnX (sl3 a0 ⟨(i 0).val, (i 0).isLt⟩) (sl3 a1 ⟨(i 0).val, (i 0).isLt⟩) (mat a2) (vec a3) (mat a4) (vec a5) (mat a6) (vec a7)
    (rel2 a8) (adj3 adj) ⟨(i 1).val, (i 1).isLt⟩ ⟨(i 2).val, (i 2).isLt⟩

end Cert.Spec

end
-- ==== Proof.Mask.lean ====
/-
  The additive topology mask is one and the same function of the column embeddings and the bias in both programs.
  The kernel's program computes it on the host before the launch, the reference in the middle of its own chain, by
  the same sequence of operations with the same constants: row-normalise the two embeddings (a square, a sum over
  the 15 coordinates, a square root, a floor at 1e-12, a quotient), contract them head by head, add the bias, take
  the logistic `1 / (1 + exp (-x))`, zero the diagonal and column 0, threshold at 1/2 with the straight-through
  estimator `(hard - p) + p`, and map `a` to `(1 - a) · (-10000)`. So the array the kernel's region finds in its
  mask window is the reference's mask stage of the same arguments, term for term.
-/
import proofs.«162303_j45638322487491_1_alg».proof.Proof.Gen.KernelIdeal.Frame
import proofs.«162303_j45638322487491_1_alg».proof.Proof.Gen.ReferenceIdeal.Read
import Idealize.ShloMosaic.Lib.StableHlo.Run

noncomputable section

namespace Cert.MaskEq

open Idealize.ShloMosaic Idealize.ShloMosaic.TcCoe Idealize.SL.Sem Idealize.ShloMosaic.StableHlo

set_option maxHeartbeats 16000000 in
/-- The mask window's array at region entry is the reference's mask stage of the kernel's own arguments. -/
theorem mask_eq (m : (ℓ : Loc Cert.KernelIdeal.nD Cert.KernelIdeal.τ Cert.KernelIdeal.sig) → Buf (Elt Ideal) ℓ)
    (c : Dev Cert.KernelIdeal.nD) :
    (Cert.KernelIdeal.Gen.V (F := Ideal) m c Cert.KernelIdeal.main_v45 : Cert.KernelIdeal.S8x129x129.Idx → EReal)
      = Cert.ReferenceIdeal.Read.val_main_v69 (F := Ideal)
          (m ((c : Thread Cert.KernelIdeal.nD Cert.KernelIdeal.τ).loc Cert.KernelIdeal.main_arg9))
          (m ((c : Thread Cert.KernelIdeal.nD Cert.KernelIdeal.τ).loc Cert.KernelIdeal.main_arg10))
          (m ((c : Thread Cert.KernelIdeal.nD Cert.KernelIdeal.τ).loc Cert.KernelIdeal.main_arg11)) := by
  dsimp only [Cert.KernelIdeal.Gen.V]
  simp only [Cert.KernelIdeal.Gen.hostOps0, Cert.KernelIdeal.Gen.hostOps0_1, Cert.KernelIdeal.Gen.hostOps0_2,
    Cert.KernelIdeal.Gen.hostOps0_3, List.flatten_cons, List.flatten_nil, List.append_nil, List.cons_append,
    List.nil_append]
  after_results_simp
  rfl

end Cert.MaskEq

end
-- ==== Proof.PayLin.lean ====
/-
  The kernel's three affine projections, read at an index. Each payload multiplies a [129, 512] block of rows by the
  transpose of a [512, 512] weight and adds the bias row; two of them then split the 512 columns into 8 heads of 64.
  At the ideal instance the narrowing to bf16 is the identity and the product into a zero accumulator is the plain
  sum over the contracted column, so each entry is `lin` of the block, the weight and the bias.
-/
import proofs.«162303_j45638322487491_1_alg».proof.Proof.Gen.KernelIdeal.Skeleton
import proofs.«162303_j45638322487491_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx Cert.Spec

/-! ## The contraction's index maps, axis by axis

The product contracts column `k` of the left operand with row `k` of the right one: the left operand is read at
(row of the result, `k`), the right one at (`k`, column of the result). -/

/-- The left operand's row is the result's row. -/
theorem lhs_lin_0 (i : S129x512.Idx) (q : dot_S129x512_S512x512_S129x512_1_0_0_1_n_n.contr.Idx) :
    (dot_S129x512_S512x512_S129x512_1_0_0_1_n_n.lhsIdx i q 0).val = (i 0).val := by
  unfold DotDims.lhsIdx
  rw [dif_neg (show ¬(0 : Fin S129x512.rank) ∈ dot_S129x512_S512x512_S129x512_1_0_0_1_n_n.lhsBatch by decide),
    dif_pos (show (0 : Fin S129x512.rank) ∈ dot_S129x512_S512x512_S129x512_1_0_0_1_n_n.lhsNonContracting by decide)]
  rfl

/-- The left operand's column is the contracted coordinate. -/
theorem lhs_lin_1 (i : S129x512.Idx) (q : dot_S129x512_S512x512_S129x512_1_0_0_1_n_n.contr.Idx) :
    (dot_S129x512_S512x512_S129x512_1_0_0_1_n_n.lhsIdx i q 1).val = (q ⟨0, by decide⟩).val :=
  dot_S129x512_S512x512_S129x512_1_0_0_1_n_n.lhsIdx_val_of_single rfl i q

/-- The right operand's row is the contracted coordinate. -/
theorem rhs_lin_0 (i : S129x512.Idx) (q : dot_S129x512_S512x512_S129x512_1_0_0_1_n_n.contr.Idx) :
    (dot_S129x512_S512x512_S129x512_1_0_0_1_n_n.rhsIdx i q 0).val = (q ⟨0, by decide⟩).val :=
  dot_S129x512_S512x512_S129x512_1_0_0_1_n_n.rhsIdx_val_of_single rfl i q

/-- The right operand's column is the result's column. -/
theorem rhs_lin_1 (i : S129x512.Idx) (q : dot_S129x512_S512x512_S129x512_1_0_0_1_n_n.contr.Idx) :
    (dot_S129x512_S512x512_S129x512_1_0_0_1_n_n.rhsIdx i q 1).val = (i 1).val := by
  unfold DotDims.rhsIdx
  rw [dif_neg (show ¬(1 : Fin S512x512.rank) ∈ dot_S129x512_S512x512_S129x512_1_0_0_1_n_n.rhsBatch by decide),
    dif_pos (show (1 : Fin S512x512.rank) ∈ dot_S129x512_S512x512_S129x512_1_0_0_1_n_n.rhsNonContracting by decide)]
  rfl

/-! ## The product into the zero accumulator -/

/-- Entry (n, e) of the product of a [129, 512] block with a [512, 512] matrix, accumulated from zero, is
    `∑ k, x[n, k] · w[k, e]`. -/
theorem matmul_lin_apply (x : FVec Ideal S129x512 .bf16) (w : FVec Ideal S512x512 .bf16) (n : Fin 129) (e : Fin 512) :
    matmul dot_S129x512_S512x512_S129x512_1_0_0_1_n_n none x w (constant (F := Ideal) S129x512 .f32 0x00000000#32) (ix2 n e)
      = ∑ k : Fin 512, x (ix2 n k) * w (ix2 k e) := by
  simp only [matmul]
  rw [Ideal.matmul_constant_zero_apply,
    ← Equiv.sum_comp (contrEquiv1 dot_S129x512_S512x512_S129x512_1_0_0_1_n_n 512 rfl rfl).symm]
  refine Finset.sum_congr rfl fun k _ => ?_
  have hk := contrEquiv1_symm_val dot_S129x512_S512x512_S129x512_1_0_0_1_n_n 512 rfl rfl k
  have el : dot_S129x512_S512x512_S129x512_1_0_0_1_n_n.lhsIdx (ix2 n e)
      ((contrEquiv1 dot_S129x512_S512x512_S129x512_1_0_0_1_n_n 512 rfl rfl).symm k) = ix2 n k :=
    funext fun a => Fin.ext (by
      match a with
      | ⟨0, _⟩ => exact lhs_lin_0 _ _
      | ⟨1, _⟩ => exact (lhs_lin_1 _ _).trans hk)
  have er : dot_S129x512_S512x512_S129x512_1_0_0_1_n_n.rhsIdx (ix2 n e)
      ((contrEquiv1 dot_S129x512_S512x512_S129x512_1_0_0_1_n_n 512 rfl rfl).symm k) = ix2 k e :=
    funext fun a => Fin.ext (by
      match a with
      | ⟨0, _⟩ => exact (rhs_lin_0 _ _).trans hk
      | ⟨1, _⟩ => exact rhs_lin_1 _ _)
  rw [el, er]

/-! ## The shared core: product plus bias row -/

/-- Entry (n, e) of `x Wᵀ + b` as the payloads spell it: the block with its unit axis dropped, the weight transposed,
    the product accumulated from zero, the bias row repeated over the 129 rows. The contracted sum is
    `∑ k, x[n, k] · Wᵀ[k, e] = ∑ k, x[n, k] · W[e, k]`. -/
theorem lin_core_apply (v : Vec Ideal S1x129x512 .f32) (W : Vec Ideal S512x512 .f32) (b : Vec Ideal S512 .f32)
    (n : Fin 129) (e : Fin 512) :
    addf
      (matmul dot_S129x512_S512x512_S129x512_1_0_0_1_n_n none
        (truncf .bf16 (shapeCast S129x512 v shapeCasts_S1x129x512_S129x512) bitsLt_bf16_f32)
        (transpose S512x512 [1, 0] (truncf .bf16 W bitsLt_bf16_f32) transposes_S512x512_p1_0_S512x512)
        (constant (F := Ideal) S129x512 .f32 0x00000000#32))
      (broadcastTo S129x512 (shapeCast S1x512 b shapeCasts_S512_S1x512) broadcasts_S1x512_S129x512) (ix2 n e)
      = lin (blk3 v) (mat W) (vec b) n e := by
  rw [addf_apply, matmul_lin_apply]
  unfold lin
  refine congrArg₂ (· + ·) (Finset.sum_congr rfl fun k _ => congrArg₂ (· * ·) ?_ ?_) ?_
  · exact shapeCast_1ab_ab_apply v shapeCasts_S1x129x512_S129x512 n k
  · exact transpose_ix2_apply _ transposes_S512x512_p1_0_S512x512 k e
  · exact (broadcastTo_1b_ab_apply _ broadcasts_S1x512_S129x512 n e).trans
      (shapeCast_a_1a_apply b shapeCasts_S512_S1x512 0 e)

/-! ## The head split and the head-major order -/

/-- A [129, 512] array cut into 8 heads of 64 reads, at (n, h, d), the operand at (n, h·64 + d): both positions are
    `n·512 + h·64 + d` in row-major order. -/
theorem split_heads_apply {α : Type} (y : S129x512.Idx → α) (n : Fin 129) (h : Fin 8) (d : Fin 64) :
    shapeCast S129x8x64 y shapeCasts_S129x512_S129x8x64 (ix3 n h d) = y (ix2 n (hd h d)) :=
  shapeCast_apply y shapeCasts_S129x512_S129x8x64 _ _ (by
    rw [Shape.rowMajor_val_two, Shape.rowMajor_val_three]
    show n.val * 512 + (h.val * 64 + d.val) = (n.val * 8 + h.val) * 64 + d.val
    omega)

/-- The [129, 8, 64] array with its first two axes exchanged reads, at (h, n, d), the operand at (n, h, d). -/
theorem heads_first_apply {α : Type} (y : S129x8x64.Idx → α) (h : Fin 8) (n : Fin 129) (d : Fin 64) :
    transpose S8x129x64 [1, 0, 2] y transposes_S129x8x64_p1_0_2_S8x129x64 (ix3 h n d) = y (ix3 n h d) :=
  transpose_apply _ y transposes_S129x8x64_p1_0_2_S8x129x64 _ _ fun c =>
    match c with | ⟨0, _⟩ => rfl | ⟨1, _⟩ => rfl | ⟨2, _⟩ => rfl

/-- The head features, head-major: entry (h, n, d) is column `h·64 + d` of row `n` of `x Wᵀ + b`. -/
theorem pay9_apply (v0 : Vec Ideal S1x129x512 .f32) (v6 : Vec Ideal S512x512 .f32) (v8 : Vec Ideal S512 .f32)
    (h : Fin 8) (n : Fin 129) (d : Fin 64) :
    k0_pay9 (F := Ideal) v0 v6 v8 (ix3 h n d) = lin (blk3 v0) (mat v6) (vec v8) n (hd h d) := by
  unfold k0_pay9 k0_pay5
  exact (heads_first_apply _ h n d).trans
    ((split_heads_apply _ n h d).trans (lin_core_apply v0 v6 v8 n (hd h d)))

/-- The tail features, row-major with the heads split: entry (n, h, d) is column `h·64 + d` of row `n`. -/
theorem pay10_apply (v3 : Vec Ideal S1x129x512 .f32) (v6 : Vec Ideal S512x512 .f32) (v8 : Vec Ideal S512 .f32)
    (n : Fin 129) (h : Fin 8) (d : Fin 64) :
    k0_pay10 (F := Ideal) v3 v6 v8 (ix3 n h d) = lin (blk3 v3) (mat v6) (vec v8) n (hd h d) := by
  unfold k0_pay10 k0_pay4 k0_pay5
  exact (split_heads_apply _ n h d).trans (lin_core_apply v3 v6 v8 n (hd h d))

/-- The value features, unsplit: entry (n, e) of `x Wᵀ + b`. -/
theorem pay8_apply (v3 : Vec Ideal S1x129x512 .f32) (v9 : Vec Ideal S512x512 .f32) (v11 : Vec Ideal S512 .f32)
    (n : Fin 129) (e : Fin 512) :
    k0_pay8 (F := Ideal) v3 v9 v11 (ix2 n e) = lin (blk3 v3) (mat v9) (vec v11) n e := by
  unfold k0_pay8 k0_pay4
  exact lin_core_apply v3 v9 v11 n e

end Cert.KernelIdeal.Pay

end
-- ==== Proof.PayProb.lean ====
/-
  The kernel's attention probabilities, read at an index. The payload scales the head features by the relation
  embedding, contracts them with the tail features over the 64 coordinates of each head (a batched product into a
  zero accumulator: the plain sum), multiplies by 1/8, adds the mask, and takes the max-shifted softmax along the
  last axis: the row maximum is the fold of `max` from -∞, the normaliser the sum of the exponentials.
-/
import proofs.«162303_j45638322487491_1_alg».proof.Proof.Gen.KernelIdeal.Skeleton
import proofs.«162303_j45638322487491_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx Cert.Spec

/-! ## The layout operations read at an index -/

/-- The transposed tail features: entry (h, m, d) is entry (m, h, d) of the operand. -/
theorem tr_apply (v35 : FVec Ideal S129x8x64 .f32) (h : Fin 8) (m : Fin 129) (d : Fin 64) :
    transpose S8x129x64 [1, 0, 2] v35 transposes_S129x8x64_p1_0_2_S8x129x64 (ix3 h m d) = v35 (ix3 m h d) :=
  transpose_apply _ v35 _ _ _ fun c => match c with | ⟨0, _⟩ => rfl | ⟨1, _⟩ => rfl | ⟨2, _⟩ => rfl

/-- The relation embedding spread over the rows: entry (h, n, d) is entry (h, d). -/
theorem rel_apply (v15 : Vec Ideal S8x64 .f32) (h : Fin 8) (n : Fin 129) (d : Fin 64) :
    broadcastTo S8x129x64 (shapeCast S8x1x64 v15 shapeCasts_S8x64_S8x1x64) broadcasts_S8x1x64_S8x129x64 (ix3 h n d)
      = v15 (ix2 h d) := by
  refine (broadcastTo_apply _ _ (ix3 h n d) (ix3 h (0 : Fin 1) d) fun a => ?_).trans ?_
  · match a with
    | ⟨0, _⟩ => rfl
    | ⟨1, _⟩ => rfl
    | ⟨2, _⟩ => rfl
  · exact shapeCast_apply v15 _ _ _ (by
      rw [Shape.rowMajor_val_two, Shape.rowMajor_val_three]
      show h.val * 64 + d.val = (h.val * 1 + 0) * 64 + d.val
      omega)

/-- A per-row quantity spread along the last axis: entry (h, n, m) is entry (h, n). -/
theorem row_apply (x : FVec Ideal S8x129 .f32) (h : Fin 8) (n m : Fin 129) :
    broadcastTo S8x129x129 (shapeCast S8x129x1 x shapeCasts_S8x129_S8x129x1) broadcasts_S8x129x1_S8x129x129 (ix3 h n m)
      = x (ix2 h n) := by
  refine (broadcastTo_apply _ _ (ix3 h n m) (ix3 h n (0 : Fin 1)) fun a => ?_).trans ?_
  · match a with
    | ⟨0, _⟩ => rfl
    | ⟨1, _⟩ => rfl
    | ⟨2, _⟩ => rfl
  · exact shapeCast_apply x _ _ _ (by
      rw [Shape.rowMajor_val_two, Shape.rowMajor_val_three]
      show h.val * 129 + n.val = (h.val * 129 + n.val) * 1 + 0
      omega)

/-! ## The batched product: one batch axis, the last axes contracted -/

theorem lhs_dot_0 (i : S8x129x129.Idx) (q : dot_S8x129x64_S8x129x64_S8x129x129_2_2_1_1_0_0.contr.Idx) :
    (dot_S8x129x64_S8x129x64_S8x129x129_2_2_1_1_0_0.lhsIdx i q 0).val = (i 0).val := by
  unfold DotDims.lhsIdx
  rw [dif_pos (show (0 : Fin S8x129x64.rank) ∈ dot_S8x129x64_S8x129x64_S8x129x129_2_2_1_1_0_0.lhsBatch by decide)]
  rfl
theorem lhs_dot_1 (i : S8x129x129.Idx) (q : dot_S8x129x64_S8x129x64_S8x129x129_2_2_1_1_0_0.contr.Idx) :
    (dot_S8x129x64_S8x129x64_S8x129x129_2_2_1_1_0_0.lhsIdx i q 1).val = (i 1).val := by
  unfold DotDims.lhsIdx
  rw [dif_neg (show ¬(1 : Fin S8x129x64.rank) ∈ dot_S8x129x64_S8x129x64_S8x129x129_2_2_1_1_0_0.lhsBatch by decide), dif_pos (show (1 : Fin S8x129x64.rank) ∈ dot_S8x129x64_S8x129x64_S8x129x129_2_2_1_1_0_0.lhsNonContracting by decide)]
  rfl
theorem lhs_dot_2 (i : S8x129x129.Idx) (q : dot_S8x129x64_S8x129x64_S8x129x129_2_2_1_1_0_0.contr.Idx) :
    (dot_S8x129x64_S8x129x64_S8x129x129_2_2_1_1_0_0.lhsIdx i q 2).val = (q ⟨0, by decide⟩).val :=
  dot_S8x129x64_S8x129x64_S8x129x129_2_2_1_1_0_0.lhsIdx_val_of_single rfl i q
theorem rhs_dot_0 (i : S8x129x129.Idx) (q : dot_S8x129x64_S8x129x64_S8x129x129_2_2_1_1_0_0.contr.Idx) :
    (dot_S8x129x64_S8x129x64_S8x129x129_2_2_1_1_0_0.rhsIdx i q 0).val = (i 0).val := by
  unfold DotDims.rhsIdx
  rw [dif_pos (show (0 : Fin S8x129x64.rank) ∈ dot_S8x129x64_S8x129x64_S8x129x129_2_2_1_1_0_0.rhsBatch by decide)]
  rfl
theorem rhs_dot_1 (i : S8x129x129.Idx) (q : dot_S8x129x64_S8x129x64_S8x129x129_2_2_1_1_0_0.contr.Idx) :
    (dot_S8x129x64_S8x129x64_S8x129x129_2_2_1_1_0_0.rhsIdx i q 1).val = (i 2).val := by
  unfold DotDims.rhsIdx
  rw [dif_neg (show ¬(1 : Fin S8x129x64.rank) ∈ dot_S8x129x64_S8x129x64_S8x129x129_2_2_1_1_0_0.rhsBatch by decide), dif_pos (show (1 : Fin S8x129x64.rank) ∈ dot_S8x129x64_S8x129x64_S8x129x129_2_2_1_1_0_0.rhsNonContracting by decide)]
  rfl
theorem rhs_dot_2 (i : S8x129x129.Idx) (q : dot_S8x129x64_S8x129x64_S8x129x129_2_2_1_1_0_0.contr.Idx) :
    (dot_S8x129x64_S8x129x64_S8x129x129_2_2_1_1_0_0.rhsIdx i q 2).val = (q ⟨0, by decide⟩).val :=
  dot_S8x129x64_S8x129x64_S8x129x129_2_2_1_1_0_0.rhsIdx_val_of_single rfl i q

/-- The product into the zero accumulator: entry (h, n, m) is the sum over the 64 coordinates of head h of the left
    operand at (h, n, d) times the right operand at (h, m, d). -/
theorem dot_apply (A B : FVec Ideal S8x129x64 .bf16) (h : Fin 8) (n m : Fin 129) :
    matmul dot_S8x129x64_S8x129x64_S8x129x129_2_2_1_1_0_0 none A B (constant (F := Ideal) S8x129x129 .f32 0x00000000#32) (ix3 h n m)
      = ∑ d : Fin 64, A (ix3 h n d) * B (ix3 h m d) := by
  simp only [matmul]
  rw [Ideal.matmul_constant_zero_apply, ← Equiv.sum_comp (contrEquiv1 dot_S8x129x64_S8x129x64_S8x129x129_2_2_1_1_0_0 64 rfl rfl).symm]
  refine Finset.sum_congr rfl fun k _ => ?_
  have hk := contrEquiv1_symm_val dot_S8x129x64_S8x129x64_S8x129x129_2_2_1_1_0_0 64 rfl rfl k
  have el : dot_S8x129x64_S8x129x64_S8x129x129_2_2_1_1_0_0.lhsIdx (ix3 h n m) ((contrEquiv1 dot_S8x129x64_S8x129x64_S8x129x129_2_2_1_1_0_0 64 rfl rfl).symm k) = ix3 h n k := funext fun a => Fin.ext (by
    match a with
    | ⟨0, _⟩ => exact lhs_dot_0 _ _
    | ⟨1, _⟩ => exact lhs_dot_1 _ _
    | ⟨2, _⟩ => exact (lhs_dot_2 _ _).trans hk)
  have er : dot_S8x129x64_S8x129x64_S8x129x129_2_2_1_1_0_0.rhsIdx (ix3 h n m) ((contrEquiv1 dot_S8x129x64_S8x129x64_S8x129x129_2_2_1_1_0_0 64 rfl rfl).symm k) = ix3 h m k := funext fun a => Fin.ext (by
    match a with
    | ⟨0, _⟩ => exact rhs_dot_0 _ _
    | ⟨1, _⟩ => exact rhs_dot_1 _ _
    | ⟨2, _⟩ => exact (rhs_dot_2 _ _).trans hk)
  rw [el, er]

/-! ## The payload cut in two: the logits, and the softmax tail as a function of the logits -/

/-- The logits of the payload: the batched product of the scaled head features with the transposed tail features,
    times the scale, plus the mask. -/
def logits (v15 : Vec Ideal S8x64 .f32) (v17 : FVec Ideal S8x129x129 .f32) (v34 : FVec Ideal S8x129x64 .f32)
    (v35 : FVec Ideal S129x8x64 .f32) : FVec Ideal S8x129x129 .f32 :=
  addf (mulf (matmul dot_S8x129x64_S8x129x64_S8x129x129_2_2_1_1_0_0 none
      (truncf .bf16 (mulf v34 (broadcastTo S8x129x64 (shapeCast S8x1x64 v15 shapeCasts_S8x64_S8x1x64) broadcasts_S8x1x64_S8x129x64)) bitsLt_bf16_f32)
      (truncf .bf16 (transpose S8x129x64 [1, 0, 2] v35 transposes_S129x8x64_p1_0_2_S8x129x64) bitsLt_bf16_f32)
      (constant S8x129x129 .f32 0x00000000#32))
    (broadcast S8x129x129 (Scalar.ofBits .f32 0x3E000000#32 : Ideal .f32))) v17

/-- The row maxima of a table of logits: the fold of `max` from -∞ along the last axis, then once more against -∞. -/
def rmax (L : FVec Ideal S8x129x129 .f32) : FVec Ideal S8x129 .f32 :=
  maximumf (broadcast S8x129 (Scalar.ofBits .f32 0xFF800000#32 : Ideal .f32))
    (multiReduction .maximumf [2] S8x129 L 0xFF800000#32 reduces_S8x129x129_S8x129 (.inl rfl) rfl)

/-- The exponentials of the logits shifted by their row maximum. -/
def shexp (L : FVec Ideal S8x129x129 .f32) : FVec Ideal S8x129x129 .f32 :=
  exp (subf L (broadcastTo S8x129x129 (shapeCast S8x129x1 (rmax L) shapeCasts_S8x129_S8x129x1) broadcasts_S8x129x1_S8x129x129))

/-- The softmax tail: the shifted exponentials over their row sums. -/
def tail (L : FVec Ideal S8x129x129 .f32) : FVec Ideal S8x129x129 .f32 :=
  divf (shexp L) (broadcastTo S8x129x129 (shapeCast S8x129x1
    (multiReduction .add [2] S8x129 (shexp L) 0x00000000#32 reduces_S8x129x129_S8x129 (.inl rfl) rfl)
    shapeCasts_S8x129_S8x129x1) broadcasts_S8x129x1_S8x129x129)

/-- The payload is the softmax tail of its logits. -/
theorem pay1_eq (v15 : Vec Ideal S8x64 .f32) (v17 : FVec Ideal S8x129x129 .f32) (v34 : FVec Ideal S8x129x64 .f32)
    (v35 : FVec Ideal S129x8x64 .f32) :
    k0_pay1 (F := Ideal) v15 v17 v34 v35 = tail (logits v15 v17 v34 v35) := rfl

/-! ## The logits at an index -/

/-- Entry (h, n, m) of the logits: the score of row n against row m in head h, times 1/8, plus the mask. -/
theorem logits_apply (v15 : Vec Ideal S8x64 .f32) (v17 : FVec Ideal S8x129x129 .f32) (v34 : FVec Ideal S8x129x64 .f32)
    (v35 : FVec Ideal S129x8x64 .f32) (fh ft : Rows)
    (h34 : ∀ (h : Fin 8) (n : Fin 129) (d : Fin 64), v34 (ix3 h n d) = fh n (hd h d))
    (h35 : ∀ (n : Fin 129) (h : Fin 8) (d : Fin 64), v35 (ix3 n h d) = ft n (hd h d))
    (h : Fin 8) (n m : Fin 129) :
    logits v15 v17 v34 v35 (ix3 h n m) = logit fh ft (rel2 v15) (adj3 v17) h n m := by
  unfold logits
  rw [addf_apply, mulf_apply, dot_apply]
  show (∑ d : Fin 64, _) * eighth + v17 (ix3 h n m) = score fh ft (rel2 v15) h n m * eighth + v17 (ix3 h n m)
  refine congrArg (fun s => s * eighth + v17 (ix3 h n m)) (Finset.sum_congr rfl fun d _ => ?_)
  rw [truncf_apply, truncf_apply, mulf_apply, rel_apply, tr_apply, h34, h35]
  rfl

/-! ## The softmax tail at an index -/

/-- The index (h, n) with the coordinate k put back on the reduced last axis is (h, n, k). -/
theorem lift_eq (h : Fin 8) (n k : Fin 129) :
    reduces_S8x129x129_S8x129.lift (ix2 h n) k = ix3 h n k := funext fun a => Fin.ext (by
  match a with
  | ⟨0, _⟩ => rfl
  | ⟨1, _⟩ => rfl
  | ⟨2, _⟩ => rfl)

/-- Entry (h, n) of the row maxima is the row maximum of row (h, n) of the logits. -/
theorem rmax_apply (L : FVec Ideal S8x129x129 .f32) (h : Fin 8) (n : Fin 129) :
    rmax L (ix2 h n) = rowmax (fun k => L (ix3 h n k)) := by
  show max ninf (multiReduction (F := Ideal) .maximumf [2] S8x129 L 0xFF800000#32 reduces_S8x129x129_S8x129 (.inl rfl) rfl (ix2 h n)) = _
  refine (congrArg (max ninf) (Ideal.multiReduction_maximumf_single L 0xFF800000#32 reduces_S8x129x129_S8x129 (.inl rfl) rfl (ix2 h n))).trans ?_
  unfold rowmax
  refine congrArg (max ninf) ?_
  refine congrArg (Finset.univ.fold max ninf) (funext fun k => ?_)
  exact congrArg L (lift_eq h n k)

/-- Entry (h, n, m) of the shifted exponentials: the exponential of the logit minus its row maximum. -/
theorem shexp_apply (L : FVec Ideal S8x129x129 .f32) (h : Fin 8) (n m : Fin 129) :
    shexp L (ix3 h n m) = Ideal.exp (L (ix3 h n m) - rowmax (fun k => L (ix3 h n k))) := by
  show Ideal.exp (L (ix3 h n m) - broadcastTo S8x129x129 (shapeCast S8x129x1 (rmax L) shapeCasts_S8x129_S8x129x1)
    broadcasts_S8x129x1_S8x129x129 (ix3 h n m)) = _
  rw [row_apply, rmax_apply]

/-- Entry (h, n, m) of the softmax tail of a table of logits is the max-shifted softmax of row (h, n) at m: the
    normaliser is the sum over the last axis of the shifted exponentials. -/
theorem tail_apply (L : FVec Ideal S8x129x129 .f32) (h : Fin 8) (n m : Fin 129) :
    tail L (ix3 h n m) = smax (fun k => L (ix3 h n k)) m := by
  show Ideal.div (shexp L (ix3 h n m)) (broadcastTo S8x129x129 (shapeCast S8x129x1
    (multiReduction (F := Ideal) .add [2] S8x129 (shexp L) 0x00000000#32 reduces_S8x129x129_S8x129 (.inl rfl) rfl)
    shapeCasts_S8x129_S8x129x1) broadcasts_S8x129x1_S8x129x129 (ix3 h n m)) = _
  rw [row_apply, shexp_apply]
  unfold smax
  refine congrArg (Ideal.div _) ?_
  refine (Ideal.multiReduction_add_single (shexp L) 0x00000000#32 reduces_S8x129x129_S8x129 (.inl rfl) rfl (ix2 h n)).trans ?_
  refine Finset.sum_congr rfl fun k _ => ?_
  exact (congrArg (shexp L) (lift_eq h n k)).trans (shexp_apply L h n k)

/-- Entry (h, n, m) of the probabilities, for head and tail features given through their entries. -/
theorem pay1_apply (v15 : Vec Ideal S8x64 .f32) (v17 : FVec Ideal S8x129x129 .f32) (v34 : FVec Ideal S8x129x64 .f32)
    (v35 : FVec Ideal S129x8x64 .f32) (fh ft : Rows)
    (h34 : ∀ (h : Fin 8) (n : Fin 129) (d : Fin 64), v34 (ix3 h n d) = fh n (hd h d))
    (h35 : ∀ (n : Fin 129) (h : Fin 8) (d : Fin 64), v35 (ix3 n h d) = ft n (hd h d))
    (h : Fin 8) (n m : Fin 129) :
    k0_pay1 (F := Ideal) v15 v17 v34 v35 (ix3 h n m) = prob fh ft (rel2 v15) (adj3 v17) h n m := by
  rw [pay1_eq, tail_apply]
  unfold prob
  refine congrArg (fun l => smax l m) (funext fun k => ?_)
  exact logits_apply v15 v17 v34 v35 fh ft h34 h35 h n k

end Cert.KernelIdeal.Pay

end
-- ==== Proof.PayOut.lean ====
/-
  The kernel's output block, read at an index. The probabilities mix the value features head by head (a batched
  product over the 129 rows), the heads are transposed back and laid side by side into 512 columns, and the last
  affine map (again a product with a transposed weight into a zero accumulator, plus the bias row) gives the block.
-/
import proofs.«162303_j45638322487491_1_alg».proof.Proof.Gen.KernelIdeal.Skeleton
import proofs.«162303_j45638322487491_1_alg».proof.Proof.Spec
import proofs.«162303_j45638322487491_1_alg».proof.Proof.PayProb
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx Cert.Spec

/-! ## The batched product over the 129 rows: the operand indices, axis by axis -/

private theorem pay2_mixL0 (j : S8x129x64.Idx) (q : dot_S8x129x129_S8x129x64_S8x129x64_2_1_1_2_0_0.contr.Idx) :
    (dot_S8x129x129_S8x129x64_S8x129x64_2_1_1_2_0_0.lhsIdx j q 0).val = (j 0).val := by
  unfold DotDims.lhsIdx
  rw [dif_pos (show (0 : Fin S8x129x129.rank) ∈ dot_S8x129x129_S8x129x64_S8x129x64_2_1_1_2_0_0.lhsBatch by decide)]
  rfl
private theorem pay2_mixL1 (j : S8x129x64.Idx) (q : dot_S8x129x129_S8x129x64_S8x129x64_2_1_1_2_0_0.contr.Idx) :
    (dot_S8x129x129_S8x129x64_S8x129x64_2_1_1_2_0_0.lhsIdx j q 1).val = (j 1).val := by
  unfold DotDims.lhsIdx
  rw [dif_neg (show ¬(1 : Fin S8x129x129.rank) ∈ dot_S8x129x129_S8x129x64_S8x129x64_2_1_1_2_0_0.lhsBatch by decide), dif_pos (show (1 : Fin S8x129x129.rank) ∈ dot_S8x129x129_S8x129x64_S8x129x64_2_1_1_2_0_0.lhsNonContracting by decide)]
  rfl
private theorem pay2_mixL2 (j : S8x129x64.Idx) (q : dot_S8x129x129_S8x129x64_S8x129x64_2_1_1_2_0_0.contr.Idx) :
    (dot_S8x129x129_S8x129x64_S8x129x64_2_1_1_2_0_0.lhsIdx j q 2).val = (q ⟨0, by decide⟩).val :=
  dot_S8x129x129_S8x129x64_S8x129x64_2_1_1_2_0_0.lhsIdx_val_of_single rfl j q
private theorem pay2_mixR0 (j : S8x129x64.Idx) (q : dot_S8x129x129_S8x129x64_S8x129x64_2_1_1_2_0_0.contr.Idx) :
    (dot_S8x129x129_S8x129x64_S8x129x64_2_1_1_2_0_0.rhsIdx j q 0).val = (j 0).val := by
  unfold DotDims.rhsIdx
  rw [dif_pos (show (0 : Fin S8x129x64.rank) ∈ dot_S8x129x129_S8x129x64_S8x129x64_2_1_1_2_0_0.rhsBatch by decide)]
  rfl
private theorem pay2_mixR1 (j : S8x129x64.Idx) (q : dot_S8x129x129_S8x129x64_S8x129x64_2_1_1_2_0_0.contr.Idx) :
    (dot_S8x129x129_S8x129x64_S8x129x64_2_1_1_2_0_0.rhsIdx j q 1).val = (q ⟨0, by decide⟩).val :=
  dot_S8x129x129_S8x129x64_S8x129x64_2_1_1_2_0_0.rhsIdx_val_of_single rfl j q
private theorem pay2_mixR2 (j : S8x129x64.Idx) (q : dot_S8x129x129_S8x129x64_S8x129x64_2_1_1_2_0_0.contr.Idx) :
    (dot_S8x129x129_S8x129x64_S8x129x64_2_1_1_2_0_0.rhsIdx j q 2).val = (j 2).val := by
  unfold DotDims.rhsIdx
  rw [dif_neg (show ¬(2 : Fin S8x129x64.rank) ∈ dot_S8x129x129_S8x129x64_S8x129x64_2_1_1_2_0_0.rhsBatch by decide), dif_pos (show (2 : Fin S8x129x64.rank) ∈ dot_S8x129x129_S8x129x64_S8x129x64_2_1_1_2_0_0.rhsNonContracting by decide)]
  rfl

/-- The batched product into the zero accumulator: entry (h, n, d) is the sum over the 129 rows m of
    p[h, n, m] · w[h, m, d]. -/
private theorem pay2_mix_core (p : FVec Ideal S8x129x129 .bf16) (w : FVec Ideal S8x129x64 .bf16)
    (h : Fin 8) (n : Fin 129) (d : Fin 64) :
    FloatOps.matmul dot_S8x129x129_S8x129x64_S8x129x64_2_1_1_2_0_0 none p w (constant (F := Ideal) S8x129x64 .f32 0x00000000#32) (ix3 h n d)
      = ∑ m : Fin 129, p (ix3 h n m) * w (ix3 h m d) := by
  rw [Ideal.matmul_constant_zero_apply, ← Equiv.sum_comp (contrEquiv1 dot_S8x129x129_S8x129x64_S8x129x64_2_1_1_2_0_0 129 rfl rfl).symm]
  refine Finset.sum_congr rfl fun m _ => ?_
  have hm := contrEquiv1_symm_val dot_S8x129x129_S8x129x64_S8x129x64_2_1_1_2_0_0 129 rfl rfl m
  have el : dot_S8x129x129_S8x129x64_S8x129x64_2_1_1_2_0_0.lhsIdx (ix3 h n d) ((contrEquiv1 dot_S8x129x129_S8x129x64_S8x129x64_2_1_1_2_0_0 129 rfl rfl).symm m) = ix3 h n m := funext fun a => Fin.ext (by
    match a with
    | ⟨0, _⟩ => exact pay2_mixL0 _ _
    | ⟨1, _⟩ => exact pay2_mixL1 _ _
    | ⟨2, _⟩ => exact (pay2_mixL2 _ _).trans hm)
  have er : dot_S8x129x129_S8x129x64_S8x129x64_2_1_1_2_0_0.rhsIdx (ix3 h n d) ((contrEquiv1 dot_S8x129x129_S8x129x64_S8x129x64_2_1_1_2_0_0 129 rfl rfl).symm m) = ix3 h m d := funext fun a => Fin.ext (by
    match a with
    | ⟨0, _⟩ => exact pay2_mixR0 _ _
    | ⟨1, _⟩ => exact (pay2_mixR1 _ _).trans hm
    | ⟨2, _⟩ => exact pay2_mixR2 _ _)
  rw [el, er]

/-! ## The product with the transposed weight over the 512 columns: the operand indices, axis by axis -/

private theorem pay2_linL0 (j : S129x512.Idx) (q : dot_S129x512_S512x512_S129x512_1_0_0_1_n_n.contr.Idx) :
    (dot_S129x512_S512x512_S129x512_1_0_0_1_n_n.lhsIdx j q 0).val = (j 0).val := by
  unfold DotDims.lhsIdx
  rw [dif_neg (show ¬(0 : Fin S129x512.rank) ∈ dot_S129x512_S512x512_S129x512_1_0_0_1_n_n.lhsBatch by decide), dif_pos (show (0 : Fin S129x512.rank) ∈ dot_S129x512_S512x512_S129x512_1_0_0_1_n_n.lhsNonContracting by decide)]
  rfl
private theorem pay2_linL1 (j : S129x512.Idx) (q : dot_S129x512_S512x512_S129x512_1_0_0_1_n_n.contr.Idx) :
    (dot_S129x512_S512x512_S129x512_1_0_0_1_n_n.lhsIdx j q 1).val = (q ⟨0, by decide⟩).val :=
  dot_S129x512_S512x512_S129x512_1_0_0_1_n_n.lhsIdx_val_of_single rfl j q
private theorem pay2_linR0 (j : S129x512.Idx) (q : dot_S129x512_S512x512_S129x512_1_0_0_1_n_n.contr.Idx) :
    (dot_S129x512_S512x512_S129x512_1_0_0_1_n_n.rhsIdx j q 0).val = (q ⟨0, by decide⟩).val :=
  dot_S129x512_S512x512_S129x512_1_0_0_1_n_n.rhsIdx_val_of_single rfl j q
private theorem pay2_linR1 (j : S129x512.Idx) (q : dot_S129x512_S512x512_S129x512_1_0_0_1_n_n.contr.Idx) :
    (dot_S129x512_S512x512_S129x512_1_0_0_1_n_n.rhsIdx j q 1).val = (j 1).val := by
  unfold DotDims.rhsIdx
  rw [dif_neg (show ¬(1 : Fin S512x512.rank) ∈ dot_S129x512_S512x512_S129x512_1_0_0_1_n_n.rhsBatch by decide), dif_pos (show (1 : Fin S512x512.rank) ∈ dot_S129x512_S512x512_S129x512_1_0_0_1_n_n.rhsNonContracting by decide)]
  rfl

/-- The product into the zero accumulator: entry (n, e) is the sum over the 512 columns k of x[n, k] · w[k, e]. -/
private theorem pay2_lin_core (x : FVec Ideal S129x512 .bf16) (w : FVec Ideal S512x512 .bf16)
    (n : Fin 129) (e : Fin 512) :
    FloatOps.matmul dot_S129x512_S512x512_S129x512_1_0_0_1_n_n none x w (constant (F := Ideal) S129x512 .f32 0x00000000#32) (ix2 n e)
      = ∑ k : Fin 512, x (ix2 n k) * w (ix2 k e) := by
  rw [Ideal.matmul_constant_zero_apply, ← Equiv.sum_comp (contrEquiv1 dot_S129x512_S512x512_S129x512_1_0_0_1_n_n 512 rfl rfl).symm]
  refine Finset.sum_congr rfl fun k _ => ?_
  have hk := contrEquiv1_symm_val dot_S129x512_S512x512_S129x512_1_0_0_1_n_n 512 rfl rfl k
  have el : dot_S129x512_S512x512_S129x512_1_0_0_1_n_n.lhsIdx (ix2 n e) ((contrEquiv1 dot_S129x512_S512x512_S129x512_1_0_0_1_n_n 512 rfl rfl).symm k) = ix2 n k := funext fun a => Fin.ext (by
    match a with
    | ⟨0, _⟩ => exact pay2_linL0 _ _
    | ⟨1, _⟩ => exact (pay2_linL1 _ _).trans hk)
  have er : dot_S129x512_S512x512_S129x512_1_0_0_1_n_n.rhsIdx (ix2 n e) ((contrEquiv1 dot_S129x512_S512x512_S129x512_1_0_0_1_n_n 512 rfl rfl).symm k) = ix2 k e := funext fun a => Fin.ext (by
    match a with
    | ⟨0, _⟩ => exact (pay2_linR0 _ _).trans hk
    | ⟨1, _⟩ => exact pay2_linR1 _ _)
  rw [el, er]

/-! ## The layout steps read at an index -/

/-- The value features split into heads and the head axis brought to the front: entry (h, m, d) is
    column h·64 + d of row m. -/
private theorem pay2_heads_apply (x : FVec Ideal S129x512 .f32) (h : Fin 8) (m : Fin 129) (d : Fin 64) :
    transpose S8x129x64 [1, 0, 2] (shapeCast S129x8x64 x shapeCasts_S129x512_S129x8x64) transposes_S129x8x64_p1_0_2_S8x129x64 (ix3 h m d)
      = x (ix2 m (hd h d)) := by
  refine (transpose_apply _ _ transposes_S129x8x64_p1_0_2_S8x129x64 (ix3 h m d) (ix3 m h d)
    fun c => match c with | ⟨0, _⟩ => rfl | ⟨1, _⟩ => rfl | ⟨2, _⟩ => rfl).trans ?_
  refine shapeCast_apply x shapeCasts_S129x512_S129x8x64 (ix3 m h d) (ix2 m (hd h d)) ?_
  rw [Shape.rowMajor_val_two, Shape.rowMajor_val_three]
  show m.val * 512 + (h.val * 64 + d.val) = (m.val * 8 + h.val) * 64 + d.val
  omega

/-- The heads brought back behind the rows and laid side by side: entry (n, k) is coordinate k mod 64 of
    head k / 64 at row n. -/
private theorem pay2_merge_apply (y : FVec Ideal S8x129x64 .f32) (n : Fin 129) (k : Fin 512) :
    shapeCast S129x512 (transpose S129x8x64 [1, 0, 2] y transposes_S8x129x64_p1_0_2_S129x8x64) shapeCasts_S129x8x64_S129x512 (ix2 n k)
      = y (ix3 (hOf k) n (dOf k)) := by
  refine (shapeCast_apply _ shapeCasts_S129x8x64_S129x512 (ix2 n k) (ix3 n (hOf k) (dOf k)) ?_).trans ?_
  · rw [Shape.rowMajor_val_two, Shape.rowMajor_val_three]
    show (n.val * 8 + k.val / 64) * 64 + k.val % 64 = n.val * 512 + k.val
    omega
  · exact transpose_apply _ y transposes_S8x129x64_p1_0_2_S129x8x64 (ix3 n (hOf k) (dOf k)) (ix3 (hOf k) n (dOf k))
      fun c => match c with | ⟨0, _⟩ => rfl | ⟨1, _⟩ => rfl | ⟨2, _⟩ => rfl

/-- The bias row laid under every row: entry (n, e) is the bias at e. -/
private theorem pay2_bias_apply (b : Vec Ideal S512 .f32) (n : Fin 129) (e : Fin 512) :
    broadcastTo S129x512 (shapeCast S1x512 b shapeCasts_S512_S1x512) broadcasts_S1x512_S129x512 (ix2 n e) = b (ix1 e) :=
  (broadcastTo_1b_ab_apply _ broadcasts_S1x512_S129x512 n e).trans (shapeCast_a_1a_apply b shapeCasts_S512_S1x512 0 e)

/-! ## The payload, stage by stage -/

/-- The mixing product: for probabilities p = P and value features x = fv entrywise, entry (h, n, d) of the
    batched product of p with the head-split x is the sum over rows m of P h n m · fv m (hd h d). -/
private theorem pay2_mix_apply (p : FVec Ideal S8x129x129 .f32) (x : FVec Ideal S129x512 .f32) (P : Heads) (fv : Rows)
    (hp : ∀ (h : Fin 8) (n m : Fin 129), p (ix3 h n m) = P h n m)
    (hx : ∀ (n : Fin 129) (e : Fin 512), x (ix2 n e) = fv n e)
    (h : Fin 8) (n : Fin 129) (d : Fin 64) :
    FloatOps.matmul dot_S8x129x129_S8x129x64_S8x129x64_2_1_1_2_0_0 none
        (truncf FTy.bf16 p bitsLt_bf16_f32)
        (truncf FTy.bf16 (transpose S8x129x64 [1, 0, 2] (shapeCast S129x8x64 x shapeCasts_S129x512_S129x8x64)
          transposes_S129x8x64_p1_0_2_S8x129x64) bitsLt_bf16_f32)
        (constant (F := Ideal) S8x129x64 .f32 0x00000000#32) (ix3 h n d)
      = mix P fv h n d := by
  refine (pay2_mix_core _ _ h n d).trans ?_
  unfold mix
  refine Finset.sum_congr rfl fun m _ => ?_
  exact congrArg₂ (· * ·) (hp h n m) ((pay2_heads_apply x h m d).trans (hx m (hd h d)))

/-- The heads laid side by side again: for y = o entrywise, entry (n, k) is o (hOf k) n (dOf k). -/
private theorem pay2_merged_apply (y : FVec Ideal S8x129x64 .f32) (o : HeadVals)
    (hy : ∀ (h : Fin 8) (n : Fin 129) (d : Fin 64), y (ix3 h n d) = o h n d) (n : Fin 129) (k : Fin 512) :
    shapeCast S129x512 (transpose S129x8x64 [1, 0, 2] y transposes_S8x129x64_p1_0_2_S129x8x64) shapeCasts_S129x8x64_S129x512 (ix2 n k)
      = merged o n k :=
  (pay2_merge_apply y n k).trans (hy (hOf k) n (dOf k))

/-- The last affine map: for x = X entrywise, entry (n, e) of the product of x with the transposed weight, plus the
    bias row, is the sum over columns k of X n k · W e k, plus b e. -/
private theorem pay2_affine_apply (x : FVec Ideal S129x512 .f32) (X : Rows) (w : FVec Ideal S512x512 .bf16) (b : Vec Ideal S512 .f32)
    (hx : ∀ (n : Fin 129) (k : Fin 512), x (ix2 n k) = X n k) (n : Fin 129) (e : Fin 512) :
    addf (FloatOps.matmul dot_S129x512_S512x512_S129x512_1_0_0_1_n_n none (truncf FTy.bf16 x bitsLt_bf16_f32)
          (transpose S512x512 [1, 0] w transposes_S512x512_p1_0_S512x512) (constant (F := Ideal) S129x512 .f32 0x00000000#32))
        (broadcastTo S129x512 (shapeCast S1x512 b shapeCasts_S512_S1x512) broadcasts_S1x512_S129x512) (ix2 n e)
      = lin X (mat w) (vec b) n e := by
  rw [addf_apply]
  unfold lin
  refine congrArg₂ (· + ·) ((pay2_lin_core _ _ n e).trans ?_) (pay2_bias_apply b n e)
  refine Finset.sum_congr rfl fun k _ => ?_
  exact congrArg₂ (· * ·) (hx n k) (transpose_ix2_apply w transposes_S512x512_p1_0_S512x512 k e)

/-- Entry (0, n, e) of the output block, for head, tail and value features given through their entries. -/
theorem pay2_apply (v13 : FVec Ideal S512x512 .bf16) (v14 : Vec Ideal S512 .f32) (v15 : Vec Ideal S8x64 .f32)
    (v17 : FVec Ideal S8x129x129 .f32) (v32 : FVec Ideal S129x512 .f32) (v34 : FVec Ideal S8x129x64 .f32)
    (v35 : FVec Ideal S129x8x64 .f32) (fh ft fv : Rows)
    (h34 : ∀ (h : Fin 8) (n : Fin 129) (d : Fin 64), v34 (ix3 h n d) = fh n (hd h d))
    (h35 : ∀ (n : Fin 129) (h : Fin 8) (d : Fin 64), v35 (ix3 n h d) = ft n (hd h d))
    (h32 : ∀ (n : Fin 129) (e : Fin 512), v32 (ix2 n e) = fv n e)
    (n : Fin 129) (e : Fin 512) :
    k0_pay2 (F := Ideal) v13 v14 v15 v17 v32 v34 v35 (ix3 0 n e)
      = lin (merged (mix (prob fh ft (rel2 v15) (adj3 v17)) fv)) (mat v13) (vec v14) n e := by
  unfold k0_pay2
  simp only [matmul]
  refine (shapeCast_ab_1ab_apply _ shapeCasts_S129x512_S1x129x512 0 n e).trans ?_
  refine pay2_affine_apply _ _ v13 v14 (fun n' k => ?_) n e
  refine pay2_merged_apply _ _ (fun h n'' d => ?_) n' k
  exact pay2_mix_apply _ v32 _ fv (fun h' a m => pay1_apply v15 v17 v34 v35 fh ft h34 h35 h' a m) h32 h n'' d

end Cert.KernelIdeal.Pay

end
-- ==== Proof.Blocks.lean ====
/-
  From the kernel's blocks to its two result arrays.

  The launch has 256 grid points, one per batch element. At point `t` the two row windows hold batch element `t`
  of the head and tail inputs, the weights, biases, relation embedding and mask are resident whole, and the body
  leaves in the two output windows the output block and the probability block of that batch element: `attnX`
  and `attnP` of the blocks (the payload lemmas, composed). Block `t` of either output array is batch element `t`,
  the 256 blocks tile the array, so after the run the output arrays are `G10` and `G11` of the argument arrays and
  of the mask the host stretch computed before the launch.
-/
import proofs.«162303_j45638322487491_1_alg».proof.Proof.Gen.KernelIdeal.Value
import proofs.«162303_j45638322487491_1_alg».proof.Proof.Spec
import proofs.«162303_j45638322487491_1_alg».proof.Proof.PayLin
import proofs.«162303_j45638322487491_1_alg».proof.Proof.PayProb
import proofs.«162303_j45638322487491_1_alg».proof.Proof.PayOut
import Idealize.ShloMosaic.Lib.Pipeline.Value
import Idealize.ShloMosaic.Lib.ValueLayout
import Idealize.ShloMosaic.Lib.ValueIdx

noncomputable section

namespace Cert.KernelIdeal.Arr

open Cert.KernelIdeal Cert.KernelIdeal.Gen Cert.KernelIdeal.Value Cert.KernelIdeal.Pay Cert.Spec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## What the body leaves in the two output blocks -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The probability block's leading unit axis: entry (0, h, n, k) is entry (h, n, k) of the probabilities. -/
theorem pay3_apply (v15 : Vec Ideal S8x64 .f32) (v17 : FVec Ideal S8x129x129 .f32) (v34 : FVec Ideal S8x129x64 .f32)
    (v35 : FVec Ideal S129x8x64 .f32) (h : Fin 8) (n k : Fin 129) :
    k0_pay3 (F := Ideal) v15 v17 v34 v35 (ix4 0 h n k) = k0_pay1 (F := Ideal) v15 v17 v34 v35 (ix3 h n k) :=
  shapeCast_abc_1abc_apply (k0_pay1 (F := Ideal) v15 v17 v34 v35) shapeCasts_S8x129x129_S1x8x129x129 0 h n k

/-- The mask block passes through an identity reshape. -/
theorem pay7_eq (v16 : Vec Ideal S8x129x129 .f32) : k0_pay7 (F := Ideal) v16 = v16 :=
  shapeCast_self v16 _

/-- The probability block: entry (0, h, n, k) is `attnP` of the row blocks, the resident operands and the mask. -/
theorem out11_apply (x0 x1 : Vec Ideal S1x129x512 .f32) (x2 : Vec Ideal S512x512 .f32) (x3 : Vec Ideal S512 .f32) (x4 : Vec Ideal S512x512 .f32) (x5 : Vec Ideal S512 .f32) (x6 : Vec Ideal S512x512 .f32) (x7 : Vec Ideal S512 .f32) (x8 : Vec Ideal S8x64 .f32) (x9 : Vec Ideal S8x129x129 .f32)
    (h : Fin 8) (n k : Fin 129) :
    out0_11 (F := Ideal) x0 x1 x2 x3 x4 x5 x6 x7 x8 x9 (ix4 0 h n k)
      = attnP (blk3 x0) (blk3 x1) (mat x2) (vec x3) (rel2 x8) (adj3 x9) h n k := by
  unfold out0_11
  rw [View.canon_unit_zero hz4]
  simp only [View.ld_unit_zero (S := S1x129x512) hz3, View.ld_unit_zero (S := S512x512) hz2, View.ld_unit_zero (S := S512) hz1,
    View.ld_unit_zero (S := S8x64) hz2, View.ld_unit_zero (S := S8x129x129) hz3]
  rw [pay7_eq]
  refine (pay3_apply x8 x9 (k0_pay9 x0 x2 x3) (k0_pay10 x1 x2 x3) h n k).trans ?_
  exact pay1_apply x8 x9 (k0_pay9 x0 x2 x3) (k0_pay10 x1 x2 x3) (lin (blk3 x0) (mat x2) (vec x3)) (lin (blk3 x1) (mat x2) (vec x3))
    (fun h n d => pay9_apply x0 x2 x3 h n d) (fun n h d => pay10_apply x1 x2 x3 n h d) h n k

/-- The output block: entry (0, n, e) is `attnX` of the row blocks, the resident operands and the mask. -/
theorem out10_apply (x0 x1 : Vec Ideal S1x129x512 .f32) (x2 : Vec Ideal S512x512 .f32) (x3 : Vec Ideal S512 .f32) (x4 : Vec Ideal S512x512 .f32) (x5 : Vec Ideal S512 .f32) (x6 : Vec Ideal S512x512 .f32) (x7 : Vec Ideal S512 .f32) (x8 : Vec Ideal S8x64 .f32) (x9 : Vec Ideal S8x129x129 .f32)
    (n : Fin 129) (e : Fin 512) :
    out0_10 (F := Ideal) x0 x1 x2 x3 x4 x5 x6 x7 x8 x9 (ix3 0 n e)
      = attnX (blk3 x0) (blk3 x1) (mat x2) (vec x3) (mat x4) (vec x5) (mat x6) (vec x7) (rel2 x8) (adj3 x9) n e := by
  unfold out0_10
  rw [View.canon_unit_zero hz3]
  simp only [View.ld_unit_zero (S := S1x129x512) hz3, View.ld_unit_zero (S := S512x512) hz2, View.ld_unit_zero (S := S512) hz1,
    View.ld_unit_zero (S := S8x64) hz2, View.ld_unit_zero (S := S8x129x129) hz3]
  rw [pay7_eq]
  exact pay2_apply (k0_pay6 x6) x7 x8 x9 (k0_pay8 x1 x4 x5) (k0_pay9 x0 x2 x3) (k0_pay10 x1 x2 x3)
    (lin (blk3 x0) (mat x2) (vec x3)) (lin (blk3 x1) (mat x2) (vec x3)) (lin (blk3 x1) (mat x4) (vec x5))
    (fun h n d => pay9_apply x0 x2 x3 h n d) (fun n h d => pay10_apply x1 x2 x3 n h d) (fun n e => pay8_apply x1 x4 x5 n e) n e

/-! ## The windows' index maps, decided once over the 256 grid points -/

/-- The two row windows and the two output windows sit at block `t` on the batch axis and at block 0 elsewhere;
    every resident window sits at block 0. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ win0_3.index t (0 : Fin 1) = 0
    ∧ (win0_4.index t (0 : Fin 2) = 0 ∧ win0_4.index t (1 : Fin 2) = 0)
    ∧ win0_5.index t (0 : Fin 1) = 0
    ∧ (win0_6.index t (0 : Fin 2) = 0 ∧ win0_6.index t (1 : Fin 2) = 0)
    ∧ win0_7.index t (0 : Fin 1) = 0
    ∧ (win0_8.index t (0 : Fin 2) = 0 ∧ win0_8.index t (1 : Fin 2) = 0)
    ∧ (win0_9.index t (0 : Fin 3) = 0 ∧ win0_9.index t (1 : Fin 3) = 0 ∧ win0_9.index t (2 : Fin 3) = 0)
    ∧ (win0_10.index t (0 : Fin 3) = t.val ∧ win0_10.index t (1 : Fin 3) = 0 ∧ win0_10.index t (2 : Fin 3) = 0)
    ∧ (win0_11.index t (0 : Fin 4) = t.val ∧ win0_11.index t (1 : Fin 4) = 0 ∧ win0_11.index t (2 : Fin 4) = 0
        ∧ win0_11.index t (3 : Fin 4) = 0) :=
  (by decide +kernel : ∀ t : Fin grid0.N, _)

/-- A grid point is a batch index. -/
theorem t_lt (t : Fin cfg0.N) : t.val < 256 := t.isLt

/-! ## The input blocks at a point, as batch slices of the arrays the region finds -/

/-- Row window 0's block at point `t` is batch element `t` of the head input. -/
theorem blk_in0 (c : Dev nD) (t : Fin cfg0.N) :
    blk3 (iblk m c 0 t) = sl3 (V m c main_arg0) (⟨t.val, t_lt t⟩ : Fin 256) := by
  obtain ⟨⟨e0, e1, e2⟩, -⟩ := idx_facts t
  funext n k
  show V m c main_arg0 (((cfg0.win 0).blk t).view.emb (ix3 0 n k)) = V m c main_arg0 (ix3 (⟨t.val, t_lt t⟩ : Fin 256) n k)
  refine congrArg _ (funext fun a => Fin.ext ?_)
  match a with
  | ⟨0, _⟩ => show win0_0.index t (0 : Fin 3) * 1 + 1 * 0 = t.val; omega
  | ⟨1, _⟩ => show win0_0.index t (1 : Fin 3) * 129 + 1 * n.val = n.val; omega
  | ⟨2, _⟩ => show win0_0.index t (2 : Fin 3) * 512 + 1 * k.val = k.val; omega

/-- Row window 1's block at point `t` is batch element `t` of the tail input. -/
theorem blk_in1 (c : Dev nD) (t : Fin cfg0.N) :
    blk3 (iblk m c 1 t) = sl3 (V m c main_arg1) (⟨t.val, t_lt t⟩ : Fin 256) := by
  obtain ⟨-, ⟨e0, e1, e2⟩, -⟩ := idx_facts t
  funext n k
  show V m c main_arg1 (((cfg0.win 1).blk t).view.emb (ix3 0 n k)) = V m c main_arg1 (ix3 (⟨t.val, t_lt t⟩ : Fin 256) n k)
  refine congrArg _ (funext fun a => Fin.ext ?_)
  match a with
  | ⟨0, _⟩ => show win0_1.index t (0 : Fin 3) * 1 + 1 * 0 = t.val; omega
  | ⟨1, _⟩ => show win0_1.index t (1 : Fin 3) * 129 + 1 * n.val = n.val; omega
  | ⟨2, _⟩ => show win0_1.index t (2 : Fin 3) * 512 + 1 * k.val = k.val; omega

/-- A resident [512, 512] window's block is the whole array. -/
theorem blk_in2 (c : Dev nD) (t : Fin cfg0.N) : (iblk m c 2 t : Vec Ideal S512x512 .f32) = V m c main_arg2 := by
  obtain ⟨-, -, ⟨e0, e1⟩, -⟩ := idx_facts t
  funext y
  show V m c main_arg2 (((cfg0.win 2).blk t).view.emb y) = V m c main_arg2 y
  refine congrArg _ (funext fun a => Fin.ext ?_)
  match a with
  | ⟨0, _⟩ => show win0_2.index t (0 : Fin 2) * 512 + 1 * (y 0).val = (y 0).val; omega
  | ⟨1, _⟩ => show win0_2.index t (1 : Fin 2) * 512 + 1 * (y 1).val = (y 1).val; omega

theorem blk_in3 (c : Dev nD) (t : Fin cfg0.N) : (iblk m c 3 t : Vec Ideal S512 .f32) = V m c main_arg3 := by
  obtain ⟨-, -, -, e0, -⟩ := idx_facts t
  funext y
  show V m c main_arg3 (((cfg0.win 3).blk t).view.emb y) = V m c main_arg3 y
  refine congrArg _ (funext fun a => Fin.ext ?_)
  match a with
  | ⟨0, _⟩ => show win0_3.index t (0 : Fin 1) * 512 + 1 * (y 0).val = (y 0).val; omega

theorem blk_in4 (c : Dev nD) (t : Fin cfg0.N) : (iblk m c 4 t : Vec Ideal S512x512 .f32) = V m c main_arg4 := by
  obtain ⟨-, -, -, -, ⟨e0, e1⟩, -⟩ := idx_facts t
  funext y
  show V m c main_arg4 (((cfg0.win 4).blk t).view.emb y) = V m c main_arg4 y
  refine congrArg _ (funext fun a => Fin.ext ?_)
  match a with
  | ⟨0, _⟩ => show win0_4.index t (0 : Fin 2) * 512 + 1 * (y 0).val = (y 0).val; omega
  | ⟨1, _⟩ => show win0_4.index t (1 : Fin 2) * 512 + 1 * (y 1).val = (y 1).val; omega

theorem blk_in5 (c : Dev nD) (t : Fin cfg0.N) : (iblk m c 5 t : Vec Ideal S512 .f32) = V m c main_arg5 := by
  obtain ⟨-, -, -, -, -, e0, -⟩ := idx_facts t
  funext y
  show V m c main_arg5 (((cfg0.win 5).blk t).view.emb y) = V m c main_arg5 y
  refine congrArg _ (funext fun a => Fin.ext ?_)
  match a with
  | ⟨0, _⟩ => show win0_5.index t (0 : Fin 1) * 512 + 1 * (y 0).val = (y 0).val; omega

theorem blk_in6 (c : Dev nD) (t : Fin cfg0.N) : (iblk m c 6 t : Vec Ideal S512x512 .f32) = V m c main_arg6 := by
  obtain ⟨-, -, -, -, -, -, ⟨e0, e1⟩, -⟩ := idx_facts t
  funext y
  show V m c main_arg6 (((cfg0.win 6).blk t).view.emb y) = V m c main_arg6 y
  refine congrArg _ (funext fun a => Fin.ext ?_)
  match a with
  | ⟨0, _⟩ => show win0_6.index t (0 : Fin 2) * 512 + 1 * (y 0).val = (y 0).val; omega
  | ⟨1, _⟩ => show win0_6.index t (1 : Fin 2) * 512 + 1 * (y 1).val = (y 1).val; omega

theorem blk_in7 (c : Dev nD) (t : Fin cfg0.N) : (iblk m c 7 t : Vec Ideal S512 .f32) = V m c main_arg7 := by
  obtain ⟨-, -, -, -, -, -, -, e0, -⟩ := idx_facts t
  funext y
  show V m c main_arg7 (((cfg0.win 7).blk t).view.emb y) = V m c main_arg7 y
  refine congrArg _ (funext fun a => Fin.ext ?_)
  match a with
  | ⟨0, _⟩ => show win0_7.index t (0 : Fin 1) * 512 + 1 * (y 0).val = (y 0).val; omega

theorem blk_in8 (c : Dev nD) (t : Fin cfg0.N) : (iblk m c 8 t : Vec Ideal S8x64 .f32) = V m c main_arg8 := by
  obtain ⟨-, -, -, -, -, -, -, -, ⟨e0, e1⟩, -⟩ := idx_facts t
  funext y
  show V m c main_arg8 (((cfg0.win 8).blk t).view.emb y) = V m c main_arg8 y
  refine congrArg _ (funext fun a => Fin.ext ?_)
  match a with
  | ⟨0, _⟩ => show win0_8.index t (0 : Fin 2) * 8 + 1 * (y 0).val = (y 0).val; omega
  | ⟨1, _⟩ => show win0_8.index t (1 : Fin 2) * 64 + 1 * (y 1).val = (y 1).val; omega

/-- The resident mask window's block is the whole mask the host stretch computed. -/
theorem blk_in9 (c : Dev nD) (t : Fin cfg0.N) : (iblk m c 9 t : Vec Ideal S8x129x129 .f32) = V m c main_v45 := by
  obtain ⟨-, -, -, -, -, -, -, -, -, ⟨e0, e1, e2⟩, -⟩ := idx_facts t
  funext y
  show V m c main_v45 (((cfg0.win 9).blk t).view.emb y) = V m c main_v45 y
  refine congrArg _ (funext fun a => Fin.ext ?_)
  match a with
  | ⟨0, _⟩ => show win0_9.index t (0 : Fin 3) * 8 + 1 * (y 0).val = (y 0).val; omega
  | ⟨1, _⟩ => show win0_9.index t (1 : Fin 3) * 129 + 1 * (y 1).val = (y 1).val; omega
  | ⟨2, _⟩ => show win0_9.index t (2 : Fin 3) * 129 + 1 * (y 2).val = (y 2).val; omega

/-! ## What a point writes back is its block of the whole-array functions -/

/-- `G11` at explicit coordinates. -/
theorem G11_ix4 (a0 a1 : Vec Ideal S256x129x512 .f32) (a2 : Vec Ideal S512x512 .f32) (a3 : Vec Ideal S512 .f32) (a8 : Vec Ideal S8x64 .f32)
    (adj : Vec Ideal S8x129x129 .f32) (b : Fin 256) (h : Fin 8) (n k : Fin 129) :
    G11 a0 a1 a2 a3 a8 adj (ix4 b h n k) = attnP (sl3 a0 b) (sl3 a1 b) (mat a2) (vec a3) (rel2 a8) (adj3 adj) h n k := rfl

/-- `G10` at explicit coordinates. -/
theorem G10_ix3 (a0 a1 : Vec Ideal S256x129x512 .f32) (a2 : Vec Ideal S512x512 .f32) (a3 : Vec Ideal S512 .f32) (a4 : Vec Ideal S512x512 .f32)
    (a5 : Vec Ideal S512 .f32) (a6 : Vec Ideal S512x512 .f32) (a7 : Vec Ideal S512 .f32) (a8 : Vec Ideal S8x64 .f32) (adj : Vec Ideal S8x129x129 .f32)
    (b : Fin 256) (n : Fin 129) (e : Fin 512) :
    G10 a0 a1 a2 a3 a4 a5 a6 a7 a8 adj (ix3 b n e)
      = attnX (sl3 a0 b) (sl3 a1 b) (mat a2) (vec a3) (mat a4) (vec a5) (mat a6) (vec a7) (rel2 a8) (adj3 adj) n e := rfl

/-- At point `t`, entry `j` of the probability block the body leaves is `G11` at the array index under it. -/
theorem flushed11_idx (c : Dev nD) (t : Fin cfg0.N) (j : S1x8x129x129.Idx) :
    out0_11 (iblk m c 0 t) (iblk m c 1 t) (iblk m c 2 t) (iblk m c 3 t) (iblk m c 4 t) (iblk m c 5 t) (iblk m c 6 t) (iblk m c 7 t) (iblk m c 8 t) (iblk m c 9 t) j
      = G11 (V m c main_arg0) (V m c main_arg1) (V m c main_arg2) (V m c main_arg3) (V m c main_arg8) (V m c main_v45) (((cfg0.win 11).blk t).view.emb j) := by
  obtain ⟨-, -, -, -, -, -, -, -, -, -, -, ⟨e0, e1, e2, e3⟩⟩ := idx_facts t
  obtain ⟨u, h, n, k, rfl⟩ : ∃ (u : Fin 1) (h : Fin 8) (n k : Fin 129), j = ix4 u h n k := ⟨j 0, j 1, j 2, j 3, eq_ix4 j⟩
  obtain rfl : u = 0 := Fin.ext (by have := u.isLt; omega)
  have hemb : ((cfg0.win 11).blk t).view.emb (ix4 (0 : Fin 1) h n k) = ix4 (⟨t.val, t_lt t⟩ : Fin 256) h n k := by
    funext a; apply Fin.ext
    match a with
    | ⟨0, _⟩ => show win0_11.index t (0 : Fin 4) * 1 + 1 * 0 = t.val; omega
    | ⟨1, _⟩ => show win0_11.index t (1 : Fin 4) * 8 + 1 * h.val = h.val; omega
    | ⟨2, _⟩ => show win0_11.index t (2 : Fin 4) * 129 + 1 * n.val = n.val; omega
    | ⟨3, _⟩ => show win0_11.index t (3 : Fin 4) * 129 + 1 * k.val = k.val; omega
  rw [hemb, G11_ix4]
  refine (out11_apply (iblk m c 0 t) (iblk m c 1 t) (iblk m c 2 t) (iblk m c 3 t) (iblk m c 4 t) (iblk m c 5 t) (iblk m c 6 t) (iblk m c 7 t) (iblk m c 8 t) (iblk m c 9 t) h n k).trans ?_
  rw [blk_in0 m c t, blk_in1 m c t, blk_in2 m c t, blk_in3 m c t, blk_in8 m c t, blk_in9 m c t]

set_option maxHeartbeats 4000000 in
/-- Point `t` writes back block `t` of the probability array `G11`. -/
theorem flushed11_eq (c : Dev nD) (t : Fin cfg0.N) :
    (dats m 0 c).flushed 11 t = ((cfg0.win 11).blk t).view.read (Elt Ideal) (G11 (V m c main_arg0) (V m c main_arg1) (V m c main_arg2) (V m c main_arg3) (V m c main_arg8) (V m c main_v45)) := by
  rw [Value.flushed11]
  funext j
  show out0_11 (iblk m c 0 t) (iblk m c 1 t) (iblk m c 2 t) (iblk m c 3 t) (iblk m c 4 t) (iblk m c 5 t) (iblk m c 6 t) (iblk m c 7 t) (iblk m c 8 t) (iblk m c 9 t) j
    = G11 (V m c main_arg0) (V m c main_arg1) (V m c main_arg2) (V m c main_arg3) (V m c main_arg8) (V m c main_v45) (((cfg0.win 11).blk t).view.emb j)
  exact flushed11_idx m c t j

/-- At point `t`, entry `j` of the output block the body leaves is `G10` at the array index under it. -/
theorem flushed10_idx (c : Dev nD) (t : Fin cfg0.N) (j : S1x129x512.Idx) :
    out0_10 (iblk m c 0 t) (iblk m c 1 t) (iblk m c 2 t) (iblk m c 3 t) (iblk m c 4 t) (iblk m c 5 t) (iblk m c 6 t) (iblk m c 7 t) (iblk m c 8 t) (iblk m c 9 t) j
      = G10 (V m c main_arg0) (V m c main_arg1) (V m c main_arg2) (V m c main_arg3) (V m c main_arg4) (V m c main_arg5) (V m c main_arg6) (V m c main_arg7) (V m c main_arg8) (V m c main_v45) (((cfg0.win 10).blk t).view.emb j) := by
  obtain ⟨-, -, -, -, -, -, -, -, -, -, ⟨e0, e1, e2⟩, -⟩ := idx_facts t
  obtain ⟨u, n, e, rfl⟩ : ∃ (u : Fin 1) (n : Fin 129) (e : Fin 512), j = ix3 u n e := ⟨j 0, j 1, j 2, eq_ix3 j⟩
  obtain rfl : u = 0 := Fin.ext (by have := u.isLt; omega)
  have hemb : ((cfg0.win 10).blk t).view.emb (ix3 (0 : Fin 1) n e) = ix3 (⟨t.val, t_lt t⟩ : Fin 256) n e := by
    funext a; apply Fin.ext
    match a with
    | ⟨0, _⟩ => show win0_10.index t (0 : Fin 3) * 1 + 1 * 0 = t.val; omega
    | ⟨1, _⟩ => show win0_10.index t (1 : Fin 3) * 129 + 1 * n.val = n.val; omega
    | ⟨2, _⟩ => show win0_10.index t (2 : Fin 3) * 512 + 1 * e.val = e.val; omega
  rw [hemb, G10_ix3]
  refine (out10_apply (iblk m c 0 t) (iblk m c 1 t) (iblk m c 2 t) (iblk m c 3 t) (iblk m c 4 t) (iblk m c 5 t) (iblk m c 6 t) (iblk m c 7 t) (iblk m c 8 t) (iblk m c 9 t) n e).trans ?_
  rw [blk_in0 m c t, blk_in1 m c t, blk_in2 m c t, blk_in3 m c t, blk_in4 m c t, blk_in5 m c t, blk_in6 m c t,
    blk_in7 m c t, blk_in8 m c t, blk_in9 m c t]

/-- Point `t` writes back block `t` of the output array `G10`. -/
theorem flushed10_eq (c : Dev nD) (t : Fin cfg0.N) :
    (dats m 0 c).flushed 10 t = ((cfg0.win 10).blk t).view.read (Elt Ideal) (G10 (V m c main_arg0) (V m c main_arg1) (V m c main_arg2) (V m c main_arg3) (V m c main_arg4) (V m c main_arg5) (V m c main_arg6) (V m c main_arg7) (V m c main_arg8) (V m c main_v45)) := by
  rw [Value.flushed10]
  funext j
  exact flushed10_idx m c t j

/-! ## The 256 blocks tile each output array -/

/-- An index of the probability array is in point `t`'s block iff each coordinate is in the block's range. -/
theorem mem_blk11 (t : Fin cfg0.N) (i : S256x8x129x129.Idx) :
    i ∈ ((cfg0.win 11).blk t).view.set ↔ ∀ a : Fin 4, win0_11.index t a * S1x8x129x129.size a ≤ (i a).val
      ∧ (i a).val < win0_11.index t a * S1x8x129x129.size a + S1x8x129x129.size a := by
  show i ∈ ((View.whole main_v46_1).slice (win0_11.rect t)).set ↔ _
  rw [View.set_slice_whole, Rect.mem_set_unit]
  exact Iff.rfl

/-- An index of the output array is in point `t`'s block iff each coordinate is in the block's range. -/
theorem mem_blk10 (t : Fin cfg0.N) (i : S256x129x512.Idx) :
    i ∈ ((cfg0.win 10).blk t).view.set ↔ ∀ a : Fin 3, win0_10.index t a * S1x129x512.size a ≤ (i a).val
      ∧ (i a).val < win0_10.index t a * S1x129x512.size a + S1x129x512.size a := by
  show i ∈ ((View.whole main_v46_0).slice (win0_10.rect t)).set ↔ _
  rw [View.set_slice_whole, Rect.mem_set_unit]
  exact Iff.rfl

/-- Entry (b, h, n, k) of the probability array lies in the block of point `b`. -/
theorem cover11 (i : S256x8x129x129.Idx) :
    ∃ t : Fin cfg0.N, (cfg0.win 11).flush t = true ∧ i ∈ ((cfg0.win 11).blk t).view.set := by
  have h0 : (i 0).val < 256 := (i 0).isLt
  have h1 : (i 1).val < 8 := (i 1).isLt
  have h2 : (i 2).val < 129 := (i 2).isLt
  have h3 : (i 3).val < 129 := (i 3).isLt
  refine ⟨⟨(i 0).val, h0⟩, flush0_11 _, ?_⟩
  obtain ⟨-, -, -, -, -, -, -, -, -, -, -, ⟨e0, e1, e2, e3⟩⟩ := idx_facts ⟨(i 0).val, h0⟩
  rw [mem_blk11]
  intro a
  match a with
  | ⟨0, _⟩ => show win0_11.index ⟨(i 0).val, h0⟩ (0 : Fin 4) * 1 ≤ (i 0).val ∧ (i 0).val < win0_11.index ⟨(i 0).val, h0⟩ (0 : Fin 4) * 1 + 1; simp only [] at e0; omega
  | ⟨1, _⟩ => show win0_11.index ⟨(i 0).val, h0⟩ (1 : Fin 4) * 8 ≤ (i 1).val ∧ (i 1).val < win0_11.index ⟨(i 0).val, h0⟩ (1 : Fin 4) * 8 + 8; omega
  | ⟨2, _⟩ => show win0_11.index ⟨(i 0).val, h0⟩ (2 : Fin 4) * 129 ≤ (i 2).val ∧ (i 2).val < win0_11.index ⟨(i 0).val, h0⟩ (2 : Fin 4) * 129 + 129; omega
  | ⟨3, _⟩ => show win0_11.index ⟨(i 0).val, h0⟩ (3 : Fin 4) * 129 ≤ (i 3).val ∧ (i 3).val < win0_11.index ⟨(i 0).val, h0⟩ (3 : Fin 4) * 129 + 129; omega

/-- Entry (b, n, e) of the output array lies in the block of point `b`. -/
theorem cover10 (i : S256x129x512.Idx) :
    ∃ t : Fin cfg0.N, (cfg0.win 10).flush t = true ∧ i ∈ ((cfg0.win 10).blk t).view.set := by
  have h0 : (i 0).val < 256 := (i 0).isLt
  have h1 : (i 1).val < 129 := (i 1).isLt
  have h2 : (i 2).val < 512 := (i 2).isLt
  refine ⟨⟨(i 0).val, h0⟩, flush0_10 _, ?_⟩
  obtain ⟨-, -, -, -, -, -, -, -, -, -, ⟨e0, e1, e2⟩, -⟩ := idx_facts ⟨(i 0).val, h0⟩
  rw [mem_blk10]
  intro a
  match a with
  | ⟨0, _⟩ => show win0_10.index ⟨(i 0).val, h0⟩ (0 : Fin 3) * 1 ≤ (i 0).val ∧ (i 0).val < win0_10.index ⟨(i 0).val, h0⟩ (0 : Fin 3) * 1 + 1; simp only [] at e0; omega
  | ⟨1, _⟩ => show win0_10.index ⟨(i 0).val, h0⟩ (1 : Fin 3) * 129 ≤ (i 1).val ∧ (i 1).val < win0_10.index ⟨(i 0).val, h0⟩ (1 : Fin 3) * 129 + 129; omega
  | ⟨2, _⟩ => show win0_10.index ⟨(i 0).val, h0⟩ (2 : Fin 3) * 512 ≤ (i 2).val ∧ (i 2).val < win0_10.index ⟨(i 0).val, h0⟩ (2 : Fin 3) * 512 + 512; omega

/-! ## The two arrays after the run -/

/-- The probability array after the run is `G11` of the arguments and the host-computed mask. -/
theorem final11 (c : Dev nD) : (dats m 0 c).arrAt 11 cfg0.N = G11 (m ((c : Thread nD τ).loc main_arg0)) (m ((c : Thread nD τ).loc main_arg1)) (m ((c : Thread nD τ).loc main_arg2)) (m ((c : Thread nD τ).loc main_arg3)) (m ((c : Thread nD τ).loc main_arg8)) (V m c main_v45) := by
  rw [← V_main_arg0 m c, ← V_main_arg1 m c, ← V_main_arg2 m c, ← V_main_arg3 m c, ← V_main_arg8 m c]
  exact (dats m 0 c).arrAt_eq_of_cover 11 _ (fun t _ => flushed11_eq m c t) cover11

/-- The output array after the run is `G10` of the arguments and the host-computed mask. -/
theorem final10 (c : Dev nD) : (dats m 0 c).arrAt 10 cfg0.N = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (V m c main_v45) := by
  rw [← V_main_arg0 m c, ← V_main_arg1 m c, ← V_main_arg2 m c, ← V_main_arg3 m c, ← V_main_arg4 m c, ← V_main_arg5 m c,
    ← V_main_arg6 m c, ← V_main_arg7 m c, ← V_main_arg8 m c]
  exact (dats m 0 c).arrAt_eq_of_cover 10 _ (fun t _ => flushed10_eq m c t) cover10

/-- The kernel's run with both result arrays named as functions of the arguments, the arguments unchanged. -/
theorem run : θ_run defs (onTc (τ := τ) (main (F := Ideal))) ⟨m, fun _ => 0, ρ⟩ fun r => ∀ c : Dev nD,
      r.2.mem ((c : Thread nD τ).loc main_v46_0) = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (V m c main_v45)
      ∧ r.2.mem ((c : Thread nD τ).loc main_v46_1) = G11 (m ((c : Thread nD τ).loc main_arg0)) (m ((c : Thread nD τ).loc main_arg1)) (m ((c : Thread nD τ).loc main_arg2)) (m ((c : Thread nD τ).loc main_arg3)) (m ((c : Thread nD τ).loc main_arg8)) (V m c main_v45)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final10 m c), (h c).2.1.trans (final11 m c), (h c).2.2⟩)
    (Value.run_blocks m ρ)

end Cert.KernelIdeal.Arr

end
-- ==== Proof.RefProb.lean ====
/-
  The reference's probabilities, read at an index. Its three affine maps are whole-batch contractions plus a
  broadcast bias; the head split is a reshape of the 512 columns into 8 × 64 followed by a transpose; the score is a
  contraction over the 64 coordinates batched over (batch, head), divided by 8; the mask is broadcast over the batch;
  the softmax is a max-reduce from -∞, a subtraction, an exponential, an add-reduce from 0 and a quotient. Read at
  (b, h, n, m) this is `attnP` of batch element `b`, with dividing by 8 turned into multiplying by 1/8.
-/
import proofs.«162303_j45638322487491_1_alg».proof.Proof.Gen.ReferenceIdeal.Read
import proofs.«162303_j45638322487491_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.ReferenceIdeal.Stage

open Cert.ReferenceIdeal Cert.ReferenceIdeal.Gen Cert.ReferenceIdeal.Read Idealize.ShloMosaic Idealize.ShloMosaic.ValueIdx Cert.Spec

/-- The value affine map: entry (b, n, e) is row n, column e of x Wᵀ + bias in batch element b. -/
theorem v11_at (x1 : (⟨S256x129x512, .f32⟩ : BufTy).Contents (Elt Ideal)) (x4 : (⟨S512x512, .f32⟩ : BufTy).Contents (Elt Ideal)) (x5 : (⟨S512, .f32⟩ : BufTy).Contents (Elt Ideal))
    (b : Fin 256) (n : Fin 129) (e : Fin 512) :
    val_main_v11 (F := Ideal) x1 x4 x5 (ix3 b n e) = lin (sl3 x1 b) (mat x4) (vec x5) n e := by
  rw [val_main_v11_apply, val_main_v8_apply, val_main_v10_apply, val_main_v9_apply]
  have el : ∀ k : Fin 512, lidx_main_v8 (ix3 b n e) k = ix3 b n k := fun k => funext fun a => by
    match a with
    | ⟨0, _⟩ => rfl
    | ⟨1, _⟩ => rfl
    | ⟨2, _⟩ => rfl
  have er : ∀ k : Fin 512, ridx_main_v8 (ix3 b n e) k = ix2 e k := fun k => funext fun a => by
    match a with
    | ⟨0, _⟩ => rfl
    | ⟨1, _⟩ => rfl
  have eb : idx_main_v9 (idx_main_v10 (ix3 b n e)) = ix1 e := funext fun a => by
    match a with
    | ⟨0, _⟩ => rfl
  simp only [el, er, eb]
  rfl

/-- The head split of the 512 columns: row-major position ((b·129 + m)·8 + h)·64 + d of the [256,129,8,64] view is position (b, m, h·64 + d) of the [256,129,512] array; the transpose swaps the two middle axes. -/
theorem split_idx16 (b : Fin 256) (h : Fin 8) (m : Fin 129) (d : Fin 64) :
    idx_main_v16 (idx_main_v17 (ix4 b h m d)) = ix3 b m (hd h d) := by
  funext a
  apply Fin.ext
  have hb := b.isLt; have hh := h.isLt; have hm := m.isLt; have hd' := d.isLt
  match a with
  | ⟨0, _⟩ => show (((b.val * 129 + m.val) * 8 + h.val) * 64 + d.val) / 66048 = b.val; omega
  | ⟨1, _⟩ => show (((b.val * 129 + m.val) * 8 + h.val) * 64 + d.val) / 512 % 129 = m.val; omega
  | ⟨2, _⟩ => show (((b.val * 129 + m.val) * 8 + h.val) * 64 + d.val) % 512 = h.val * 64 + d.val; omega

/-- The head-split value features: entry (b, h, m, d) is column `h·64 + d` of row `m` of `x Wᵀ + b` in batch element `b`. -/
theorem v17_apply (x1 : (⟨S256x129x512, .f32⟩ : BufTy).Contents (Elt Ideal)) (x4 : (⟨S512x512, .f32⟩ : BufTy).Contents (Elt Ideal)) (x5 : (⟨S512, .f32⟩ : BufTy).Contents (Elt Ideal))
    (b : Fin 256) (h : Fin 8) (m : Fin 129) (d : Fin 64) :
    val_main_v17 (F := Ideal) x1 x4 x5 (ix4 b h m d) = lin (sl3 x1 b) (mat x4) (vec x5) m (hd h d) := by
  rw [val_main_v17_apply, val_main_v16_apply, split_idx16, v11_at]

/-- The head affine map: entry (b, n, e) is row n, column e of x Wᵀ + bias in batch element b. -/
theorem v3_at (x0 : (⟨S256x129x512, .f32⟩ : BufTy).Contents (Elt Ideal)) (x2 : (⟨S512x512, .f32⟩ : BufTy).Contents (Elt Ideal)) (x3 : (⟨S512, .f32⟩ : BufTy).Contents (Elt Ideal))
    (b : Fin 256) (n : Fin 129) (e : Fin 512) :
    val_main_v3 (F := Ideal) x0 x2 x3 (ix3 b n e) = lin (sl3 x0 b) (mat x2) (vec x3) n e := by
  rw [val_main_v3_apply, val_main_v0_apply, val_main_v2_apply, val_main_v1_apply]
  have el : ∀ k : Fin 512, lidx_main_v0 (ix3 b n e) k = ix3 b n k := fun k => funext fun a => by
    match a with
    | ⟨0, _⟩ => rfl
    | ⟨1, _⟩ => rfl
    | ⟨2, _⟩ => rfl
  have er : ∀ k : Fin 512, ridx_main_v0 (ix3 b n e) k = ix2 e k := fun k => funext fun a => by
    match a with
    | ⟨0, _⟩ => rfl
    | ⟨1, _⟩ => rfl
  have eb : idx_main_v1 (idx_main_v2 (ix3 b n e)) = ix1 e := funext fun a => by
    match a with
    | ⟨0, _⟩ => rfl
  simp only [el, er, eb]
  rfl

/-- The tail affine map: entry (b, n, e) is row n, column e of x Wᵀ + bias in batch element b. -/
theorem v7_at (x1 : (⟨S256x129x512, .f32⟩ : BufTy).Contents (Elt Ideal)) (x2 : (⟨S512x512, .f32⟩ : BufTy).Contents (Elt Ideal)) (x3 : (⟨S512, .f32⟩ : BufTy).Contents (Elt Ideal))
    (b : Fin 256) (n : Fin 129) (e : Fin 512) :
    val_main_v7 (F := Ideal) x1 x2 x3 (ix3 b n e) = lin (sl3 x1 b) (mat x2) (vec x3) n e := by
  rw [val_main_v7_apply, val_main_v4_apply, val_main_v6_apply, val_main_v5_apply]
  have el : ∀ k : Fin 512, lidx_main_v4 (ix3 b n e) k = ix3 b n k := fun k => funext fun a => by
    match a with
    | ⟨0, _⟩ => rfl
    | ⟨1, _⟩ => rfl
    | ⟨2, _⟩ => rfl
  have er : ∀ k : Fin 512, ridx_main_v4 (ix3 b n e) k = ix2 e k := fun k => funext fun a => by
    match a with
    | ⟨0, _⟩ => rfl
    | ⟨1, _⟩ => rfl
  have eb : idx_main_v5 (idx_main_v6 (ix3 b n e)) = ix1 e := funext fun a => by
    match a with
    | ⟨0, _⟩ => rfl
  simp only [el, er, eb]
  rfl

/-- The same head split for the head features. -/
theorem split_idx12 (b : Fin 256) (h : Fin 8) (m : Fin 129) (d : Fin 64) :
    idx_main_v12 (idx_main_v13 (ix4 b h m d)) = ix3 b m (hd h d) := by
  funext a
  apply Fin.ext
  have hb := b.isLt; have hh := h.isLt; have hm := m.isLt; have hd' := d.isLt
  match a with
  | ⟨0, _⟩ => show (((b.val * 129 + m.val) * 8 + h.val) * 64 + d.val) / 66048 = b.val; omega
  | ⟨1, _⟩ => show (((b.val * 129 + m.val) * 8 + h.val) * 64 + d.val) / 512 % 129 = m.val; omega
  | ⟨2, _⟩ => show (((b.val * 129 + m.val) * 8 + h.val) * 64 + d.val) % 512 = h.val * 64 + d.val; omega

/-- The same head split for the tail features. -/
theorem split_idx14 (b : Fin 256) (h : Fin 8) (m : Fin 129) (d : Fin 64) :
    idx_main_v14 (idx_main_v15 (ix4 b h m d)) = ix3 b m (hd h d) := by
  funext a
  apply Fin.ext
  have hb := b.isLt; have hh := h.isLt; have hm := m.isLt; have hd' := d.isLt
  match a with
  | ⟨0, _⟩ => show (((b.val * 129 + m.val) * 8 + h.val) * 64 + d.val) / 66048 = b.val; omega
  | ⟨1, _⟩ => show (((b.val * 129 + m.val) * 8 + h.val) * 64 + d.val) / 512 % 129 = m.val; omega
  | ⟨2, _⟩ => show (((b.val * 129 + m.val) * 8 + h.val) * 64 + d.val) % 512 = h.val * 64 + d.val; omega

/-- The head-split head features: entry (b, h, n, d) is column h·64 + d of row n. -/
theorem v13_at (x0 : (⟨S256x129x512, .f32⟩ : BufTy).Contents (Elt Ideal)) (x2 : (⟨S512x512, .f32⟩ : BufTy).Contents (Elt Ideal)) (x3 : (⟨S512, .f32⟩ : BufTy).Contents (Elt Ideal))
    (b : Fin 256) (h : Fin 8) (n : Fin 129) (d : Fin 64) :
    val_main_v13 (F := Ideal) x0 x2 x3 (ix4 b h n d) = lin (sl3 x0 b) (mat x2) (vec x3) n (hd h d) := by
  rw [val_main_v13_apply, val_main_v12_apply, split_idx12, v3_at]

/-- The head-split tail features: entry (b, h, m, d) is column h·64 + d of row m. -/
theorem v15_at (x1 : (⟨S256x129x512, .f32⟩ : BufTy).Contents (Elt Ideal)) (x2 : (⟨S512x512, .f32⟩ : BufTy).Contents (Elt Ideal)) (x3 : (⟨S512, .f32⟩ : BufTy).Contents (Elt Ideal))
    (b : Fin 256) (h : Fin 8) (m : Fin 129) (d : Fin 64) :
    val_main_v15 (F := Ideal) x1 x2 x3 (ix4 b h m d) = lin (sl3 x1 b) (mat x2) (vec x3) m (hd h d) := by
  rw [val_main_v15_apply, val_main_v14_apply, split_idx14, v7_at]

/-- The relation embedding broadcast over batch and rows: entry (b, h, n, d) is rel[h, d]. -/
theorem v19_at (x8 : (⟨S8x64, .f32⟩ : BufTy).Contents (Elt Ideal)) (b : Fin 256) (h : Fin 8) (n : Fin 129) (d : Fin 64) :
    val_main_v19 (F := Ideal) x8 (ix4 b h n d) = rel2 x8 h d := by
  rw [val_main_v19_apply, val_main_v18_apply]
  have e : idx_main_v18 (idx_main_v19 (ix4 b h n d)) = ix2 h d := funext fun a => by
    match a with
    | ⟨0, _⟩ => rfl
    | ⟨1, _⟩ => rfl
  rw [e]
  rfl

/-- The scaled score: entry (b, h, n, m) is head h's score of row n against row m, times 1/8. -/
theorem v23_at (x0 x1 : (⟨S256x129x512, .f32⟩ : BufTy).Contents (Elt Ideal)) (x2 : (⟨S512x512, .f32⟩ : BufTy).Contents (Elt Ideal)) (x3 : (⟨S512, .f32⟩ : BufTy).Contents (Elt Ideal)) (x8 : (⟨S8x64, .f32⟩ : BufTy).Contents (Elt Ideal))
    (b : Fin 256) (h : Fin 8) (n m : Fin 129) :
    val_main_v23 (F := Ideal) x0 x1 x2 x3 x8 (ix4 b h n m)
      = score (lin (sl3 x0 b) (mat x2) (vec x3)) (lin (sl3 x1 b) (mat x2) (vec x3)) (rel2 x8) h n m * eighth := by
  rw [val_main_v23_apply, val_main_v22_apply, val_main_cst_apply, val_main_v21_apply]
  have el : ∀ k : Fin 64, lidx_main_v21 (ix4 b h n m) k = ix4 b h n k := fun k => funext fun a => by
    match a with
    | ⟨0, _⟩ => rfl
    | ⟨1, _⟩ => rfl
    | ⟨2, _⟩ => rfl
    | ⟨3, _⟩ => rfl
  have er : ∀ k : Fin 64, ridx_main_v21 (ix4 b h n m) k = ix4 b h m k := fun k => funext fun a => by
    match a with
    | ⟨0, _⟩ => rfl
    | ⟨1, _⟩ => rfl
    | ⟨2, _⟩ => rfl
    | ⟨3, _⟩ => rfl
  simp only [el, er, val_main_v20_apply, v13_at, v15_at, v19_at]
  rw [Ideal.hostDivf_def, Ideal.ofBits_def]
  exact div_eight _

/-- The mask broadcast over the batch: entry (b, h, n, m) is the mask at (h, n, m). -/
theorem v71_at (x9 x10 : (⟨S8x129x15, .f32⟩ : BufTy).Contents (Elt Ideal)) (x11 : (⟨S1, .f32⟩ : BufTy).Contents (Elt Ideal)) (b : Fin 256) (h : Fin 8) (n m : Fin 129) :
    val_main_v71 (F := Ideal) x9 x10 x11 (ix4 b h n m) = adj3 (val_main_v69 (F := Ideal) x9 x10 x11) h n m := by
  rw [val_main_v71_apply, val_main_v70_apply]
  have e : idx_main_v70 (idx_main_v71 (ix4 b h n m)) = ix3 h n m := funext fun a => by
    match a with
    | ⟨0, _⟩ => rfl
    | ⟨1, _⟩ => rfl
    | ⟨2, _⟩ => rfl
  unfold adj3
  rw [e]

/-- The logits: entry (b, h, n, m) is the score times 1/8 plus the mask. -/
theorem v72_at (x0 x1 : (⟨S256x129x512, .f32⟩ : BufTy).Contents (Elt Ideal)) (x2 : (⟨S512x512, .f32⟩ : BufTy).Contents (Elt Ideal)) (x3 : (⟨S512, .f32⟩ : BufTy).Contents (Elt Ideal)) (x8 : (⟨S8x64, .f32⟩ : BufTy).Contents (Elt Ideal)) (x9 x10 : (⟨S8x129x15, .f32⟩ : BufTy).Contents (Elt Ideal)) (x11 : (⟨S1, .f32⟩ : BufTy).Contents (Elt Ideal))
    (b : Fin 256) (h : Fin 8) (n m : Fin 129) :
    val_main_v72 (F := Ideal) x0 x1 x2 x3 x8 x9 x10 x11 (ix4 b h n m) = logit (lin (sl3 x0 b) (mat x2) (vec x3)) (lin (sl3 x1 b) (mat x2) (vec x3)) (rel2 x8) (adj3 (val_main_v69 (F := Ideal) x9 x10 x11)) h n m := by
  rw [val_main_v72_apply, v23_at, v71_at, Ideal.addf_def]
  rfl

/-- Dropping the last axis of [256, 8, 129, 129]. -/
theorem reduces_d3 : S256x8x129x129.Reduces [3] S256x8x129 := by decide

/-- The row maximum before the second comparison: the fold of max from -∞ over the last axis. -/
theorem v73_at (x0 x1 : (⟨S256x129x512, .f32⟩ : BufTy).Contents (Elt Ideal)) (x2 : (⟨S512x512, .f32⟩ : BufTy).Contents (Elt Ideal)) (x3 : (⟨S512, .f32⟩ : BufTy).Contents (Elt Ideal)) (x8 : (⟨S8x64, .f32⟩ : BufTy).Contents (Elt Ideal)) (x9 x10 : (⟨S8x129x15, .f32⟩ : BufTy).Contents (Elt Ideal)) (x11 : (⟨S1, .f32⟩ : BufTy).Contents (Elt Ideal))
    (b : Fin 256) (h : Fin 8) (n : Fin 129) :
    val_main_v73 (F := Ideal) x0 x1 x2 x3 x8 x9 x10 x11 (ix3 b h n)
      = (Finset.univ : Finset (Fin 129)).fold max ninf (fun k => val_main_v72 (F := Ideal) x0 x1 x2 x3 x8 x9 x10 x11 (ix4 b h n k)) := by
  unfold val_main_v73
  generalize val_main_v72 (F := Ideal) x0 x1 x2 x3 x8 x9 x10 x11 = y
  refine (Host.reduce_eq_fold_single (FloatOps.maximumf (F := Ideal) (φ := .f32)) y (val_main_cst_11 (F := Ideal))
    reducesTo_S256x8x129x129_S256x8x129_d3 reduces_d3 h_S_ (ix3 b h n)).trans ?_
  have hf : (y ∘ reduces_d3.lift (ix3 b h n)) = fun k : Fin 129 => y (ix4 b h n k) :=
    funext fun k => congrArg y (funext fun a => Fin.ext (by
    match a with
    | ⟨0, _⟩ => rfl
    | ⟨1, _⟩ => rfl
    | ⟨2, _⟩ => rfl
    | ⟨3, _⟩ => rfl))
  rw [hf]
  rfl

/-- The row maximum: the fold of max from -∞ over the row of logits, compared once more against -∞. -/
theorem v75_at (x0 x1 : (⟨S256x129x512, .f32⟩ : BufTy).Contents (Elt Ideal)) (x2 : (⟨S512x512, .f32⟩ : BufTy).Contents (Elt Ideal)) (x3 : (⟨S512, .f32⟩ : BufTy).Contents (Elt Ideal)) (x8 : (⟨S8x64, .f32⟩ : BufTy).Contents (Elt Ideal)) (x9 x10 : (⟨S8x129x15, .f32⟩ : BufTy).Contents (Elt Ideal)) (x11 : (⟨S1, .f32⟩ : BufTy).Contents (Elt Ideal))
    (b : Fin 256) (h : Fin 8) (n : Fin 129) :
    val_main_v75 (F := Ideal) x0 x1 x2 x3 x8 x9 x10 x11 (ix3 b h n) = rowmax (logit (lin (sl3 x0 b) (mat x2) (vec x3)) (lin (sl3 x1 b) (mat x2) (vec x3)) (rel2 x8) (adj3 (val_main_v69 (F := Ideal) x9 x10 x11)) h n) := by
  rw [val_main_v75_apply, val_main_v74_apply, val_main_cst_12_apply, v73_at]
  simp only [v72_at]
  rfl

/-- The row maximum broadcast back along the row. -/
theorem v77_at (x0 x1 : (⟨S256x129x512, .f32⟩ : BufTy).Contents (Elt Ideal)) (x2 : (⟨S512x512, .f32⟩ : BufTy).Contents (Elt Ideal)) (x3 : (⟨S512, .f32⟩ : BufTy).Contents (Elt Ideal)) (x8 : (⟨S8x64, .f32⟩ : BufTy).Contents (Elt Ideal)) (x9 x10 : (⟨S8x129x15, .f32⟩ : BufTy).Contents (Elt Ideal)) (x11 : (⟨S1, .f32⟩ : BufTy).Contents (Elt Ideal))
    (b : Fin 256) (h : Fin 8) (n m : Fin 129) :
    val_main_v77 (F := Ideal) x0 x1 x2 x3 x8 x9 x10 x11 (ix4 b h n m) = rowmax (logit (lin (sl3 x0 b) (mat x2) (vec x3)) (lin (sl3 x1 b) (mat x2) (vec x3)) (rel2 x8) (adj3 (val_main_v69 (F := Ideal) x9 x10 x11)) h n) := by
  rw [val_main_v77_apply, val_main_v76_apply]
  have e : idx_main_v76 (idx_main_v77 (ix4 b h n m)) = ix3 b h n := funext fun a => by
    match a with
    | ⟨0, _⟩ => rfl
    | ⟨1, _⟩ => rfl
    | ⟨2, _⟩ => rfl
  rw [e, v75_at]

/-- The shifted exponential: entry (b, h, n, m) is exp(logit − row maximum). -/
theorem v79_at (x0 x1 : (⟨S256x129x512, .f32⟩ : BufTy).Contents (Elt Ideal)) (x2 : (⟨S512x512, .f32⟩ : BufTy).Contents (Elt Ideal)) (x3 : (⟨S512, .f32⟩ : BufTy).Contents (Elt Ideal)) (x8 : (⟨S8x64, .f32⟩ : BufTy).Contents (Elt Ideal)) (x9 x10 : (⟨S8x129x15, .f32⟩ : BufTy).Contents (Elt Ideal)) (x11 : (⟨S1, .f32⟩ : BufTy).Contents (Elt Ideal))
    (b : Fin 256) (h : Fin 8) (n m : Fin 129) :
    val_main_v79 (F := Ideal) x0 x1 x2 x3 x8 x9 x10 x11 (ix4 b h n m)
      = Ideal.exp (logit (lin (sl3 x0 b) (mat x2) (vec x3)) (lin (sl3 x1 b) (mat x2) (vec x3)) (rel2 x8) (adj3 (val_main_v69 (F := Ideal) x9 x10 x11)) h n m - rowmax (logit (lin (sl3 x0 b) (mat x2) (vec x3)) (lin (sl3 x1 b) (mat x2) (vec x3)) (rel2 x8) (adj3 (val_main_v69 (F := Ideal) x9 x10 x11)) h n)) := by
  rw [val_main_v79_apply, val_main_v78_apply, v72_at, v77_at, Ideal.hostUnary_exp_def, Ideal.subf_def]

/-- The row sum of the shifted exponentials (the sum starts from 0). -/
theorem v80_at (x0 x1 : (⟨S256x129x512, .f32⟩ : BufTy).Contents (Elt Ideal)) (x2 : (⟨S512x512, .f32⟩ : BufTy).Contents (Elt Ideal)) (x3 : (⟨S512, .f32⟩ : BufTy).Contents (Elt Ideal)) (x8 : (⟨S8x64, .f32⟩ : BufTy).Contents (Elt Ideal)) (x9 x10 : (⟨S8x129x15, .f32⟩ : BufTy).Contents (Elt Ideal)) (x11 : (⟨S1, .f32⟩ : BufTy).Contents (Elt Ideal))
    (b : Fin 256) (h : Fin 8) (n : Fin 129) :
    val_main_v80 (F := Ideal) x0 x1 x2 x3 x8 x9 x10 x11 (ix3 b h n)
      = ∑ k : Fin 129, Ideal.exp (logit (lin (sl3 x0 b) (mat x2) (vec x3)) (lin (sl3 x1 b) (mat x2) (vec x3)) (rel2 x8) (adj3 (val_main_v69 (F := Ideal) x9 x10 x11)) h n k - rowmax (logit (lin (sl3 x0 b) (mat x2) (vec x3)) (lin (sl3 x1 b) (mat x2) (vec x3)) (rel2 x8) (adj3 (val_main_v69 (F := Ideal) x9 x10 x11)) h n)) := by
  rw [val_main_v80_apply, val_main_cst_13_apply, Ideal.ofBits_def, Ideal.ofBits_zero_f32, zero_add]
  refine Finset.sum_congr rfl fun k _ => ?_
  have e : idx_main_v80 (ix3 b h n) k = ix4 b h n k := funext fun a => by
    match a with
    | ⟨0, _⟩ => rfl
    | ⟨1, _⟩ => rfl
    | ⟨2, _⟩ => rfl
    | ⟨3, _⟩ => rfl
  rw [e, v79_at]

/-- The row sum broadcast back along the row. -/
theorem v82_at (x0 x1 : (⟨S256x129x512, .f32⟩ : BufTy).Contents (Elt Ideal)) (x2 : (⟨S512x512, .f32⟩ : BufTy).Contents (Elt Ideal)) (x3 : (⟨S512, .f32⟩ : BufTy).Contents (Elt Ideal)) (x8 : (⟨S8x64, .f32⟩ : BufTy).Contents (Elt Ideal)) (x9 x10 : (⟨S8x129x15, .f32⟩ : BufTy).Contents (Elt Ideal)) (x11 : (⟨S1, .f32⟩ : BufTy).Contents (Elt Ideal))
    (b : Fin 256) (h : Fin 8) (n m : Fin 129) :
    val_main_v82 (F := Ideal) x0 x1 x2 x3 x8 x9 x10 x11 (ix4 b h n m)
      = ∑ k : Fin 129, Ideal.exp (logit (lin (sl3 x0 b) (mat x2) (vec x3)) (lin (sl3 x1 b) (mat x2) (vec x3)) (rel2 x8) (adj3 (val_main_v69 (F := Ideal) x9 x10 x11)) h n k - rowmax (logit (lin (sl3 x0 b) (mat x2) (vec x3)) (lin (sl3 x1 b) (mat x2) (vec x3)) (rel2 x8) (adj3 (val_main_v69 (F := Ideal) x9 x10 x11)) h n)) := by
  rw [val_main_v82_apply, val_main_v81_apply]
  have e : idx_main_v81 (idx_main_v82 (ix4 b h n m)) = ix3 b h n := funext fun a => by
    match a with
    | ⟨0, _⟩ => rfl
    | ⟨1, _⟩ => rfl
    | ⟨2, _⟩ => rfl
  rw [e, v80_at]

/-- The probabilities: entry (b, h, n, m) is `attnP` of batch element `b` under the reference's own mask. -/
theorem v83_apply (x0 : (⟨S256x129x512, .f32⟩ : BufTy).Contents (Elt Ideal)) (x1 : (⟨S256x129x512, .f32⟩ : BufTy).Contents (Elt Ideal)) (x2 : (⟨S512x512, .f32⟩ : BufTy).Contents (Elt Ideal)) (x3 : (⟨S512, .f32⟩ : BufTy).Contents (Elt Ideal)) (x8 : (⟨S8x64, .f32⟩ : BufTy).Contents (Elt Ideal)) (x9 : (⟨S8x129x15, .f32⟩ : BufTy).Contents (Elt Ideal)) (x10 : (⟨S8x129x15, .f32⟩ : BufTy).Contents (Elt Ideal)) (x11 : (⟨S1, .f32⟩ : BufTy).Contents (Elt Ideal))
    (b : Fin 256) (h : Fin 8) (n m : Fin 129) :
    val_main_v83 (F := Ideal) x0 x1 x2 x3 x8 x9 x10 x11 (ix4 b h n m)
      = attnP (sl3 x0 b) (sl3 x1 b) (mat x2) (vec x3) (rel2 x8) (adj3 (val_main_v69 (F := Ideal) x9 x10 x11)) h n m := by
  rw [val_main_v83_apply, v79_at, v82_at, Ideal.hostDivf_def]
  rfl

end Cert.ReferenceIdeal.Stage

end
-- ==== Proof.RefOut.lean ====
/-
  The reference's output, read at an index. The probabilities contract with the head-split value features over
  the 129 rows, batched over (batch, head); a transpose and a reshape lay the heads side by side into 512 columns;
  the last affine map is a whole-batch contraction plus a broadcast bias. Read at (b, n, e) this is `attnX` of
  batch element `b`.
-/
import proofs.«162303_j45638322487491_1_alg».proof.Proof.Gen.ReferenceIdeal.Read
import proofs.«162303_j45638322487491_1_alg».proof.Proof.Spec
import proofs.«162303_j45638322487491_1_alg».proof.Proof.RefProb
import Idealize.ShloMosaic.Lib.Pipeline.Value
import Idealize.ShloMosaic.Lib.ValueLayout
import Idealize.ShloMosaic.Lib.ValueIdx
import Idealize.ShloMosaic.PureOps.Ideal.Laws

noncomputable section

namespace Cert.ReferenceIdeal.Stage

open Cert.ReferenceIdeal Cert.ReferenceIdeal.Gen Cert.ReferenceIdeal.Read Idealize.ShloMosaic Idealize.ShloMosaic.ValueIdx Cert.Spec

/-! ## The stages' index maps at explicit coordinates -/

/-- The probability operand of the value contraction at (b, h, n, d), summand k, is read at (b, h, n, k). -/
theorem lidx_v84_ix (b : Fin 256) (h : Fin 8) (n : Fin 129) (d : Fin 64) (k : Fin 129) :
    lidx_main_v84 (ix4 b h n d) k = ix4 b h n k := by
  funext a
  match a with
  | ⟨0, _⟩ => rfl
  | ⟨1, _⟩ => rfl
  | ⟨2, _⟩ => rfl
  | ⟨3, _⟩ => rfl

/-- The value operand of the value contraction at (b, h, n, d), summand k, is read at (b, h, k, d). -/
theorem ridx_v84_ix (b : Fin 256) (h : Fin 8) (n : Fin 129) (d : Fin 64) (k : Fin 129) :
    ridx_main_v84 (ix4 b h n d) k = ix4 b h k d := by
  funext a
  match a with
  | ⟨0, _⟩ => rfl
  | ⟨1, _⟩ => rfl
  | ⟨2, _⟩ => rfl
  | ⟨3, _⟩ => rfl

/-- The transpose swaps the head and row axes: (b, n, h, d) is read at (b, h, n, d). -/
theorem idx_v85_ix (b : Fin 256) (n : Fin 129) (h : Fin 8) (d : Fin 64) :
    idx_main_v85 (ix4 b n h d) = ix4 b h n d := by
  funext a
  match a with
  | ⟨0, _⟩ => rfl
  | ⟨1, _⟩ => rfl
  | ⟨2, _⟩ => rfl
  | ⟨3, _⟩ => rfl

/-- The reshape splits column k of 512 into head k / 64 and coordinate k % 64: (b, n, k) is read at
    (b, n, hOf k, dOf k). -/
theorem idx_v86_ix (b : Fin 256) (n : Fin 129) (k : Fin 512) :
    idx_main_v86 (ix3 b n k) = ix4 b n (hOf k) (dOf k) := by
  have hb := b.isLt
  have hn := n.isLt
  have hk := k.isLt
  funext a
  apply Fin.ext
  match a with
  | ⟨0, _⟩ => show ((b.val * 129 + n.val) * 512 + k.val) / 66048 = b.val; omega
  | ⟨1, _⟩ => show ((b.val * 129 + n.val) * 512 + k.val) / 512 % 129 = n.val; omega
  | ⟨2, _⟩ => show ((b.val * 129 + n.val) * 512 + k.val) / 64 % 8 = k.val / 64; omega
  | ⟨3, _⟩ => show ((b.val * 129 + n.val) * 512 + k.val) % 64 = k.val % 64; omega

/-- The merged operand of the last contraction at (b, n, e), summand k, is read at (b, n, k). -/
theorem lidx_v87_ix (b : Fin 256) (n : Fin 129) (e : Fin 512) (k : Fin 512) :
    lidx_main_v87 (ix3 b n e) k = ix3 b n k := by
  funext a
  match a with
  | ⟨0, _⟩ => rfl
  | ⟨1, _⟩ => rfl
  | ⟨2, _⟩ => rfl

/-- The weight operand of the last contraction at (b, n, e), summand k, is read at (e, k). -/
theorem ridx_v87_ix (b : Fin 256) (n : Fin 129) (e : Fin 512) (k : Fin 512) :
    ridx_main_v87 (ix3 b n e) k = ix2 e k := by
  funext a
  match a with
  | ⟨0, _⟩ => rfl
  | ⟨1, _⟩ => rfl

/-- The broadcast bias at (b, n, e) is the bias row's entry e. -/
theorem v89_ix (x7 : (⟨S512, .f32⟩ : BufTy).Contents (Elt Ideal)) (b : Fin 256) (n : Fin 129) (e : Fin 512) :
    val_main_v89 (F := Ideal) x7 (ix3 b n e) = vec x7 e := by
  rw [val_main_v89_apply, val_main_v88_apply]
  show x7 _ = x7 (ix1 e)
  congr 1
  funext a
  match a with
  | ⟨0, _⟩ => rfl

/-! ## The stages at explicit coordinates -/

/-- The mixed values: entry (b, h, n, d) is the sum over the 129 rows m of the probability (h, n, m) times
    column `hd h d` of value row m, in batch element b. -/
theorem v84_ix (x0 : (⟨S256x129x512, .f32⟩ : BufTy).Contents (Elt Ideal)) (x1 : (⟨S256x129x512, .f32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x8 : (⟨S8x64, .f32⟩ : BufTy).Contents (Elt Ideal)) (x9 : (⟨S8x129x15, .f32⟩ : BufTy).Contents (Elt Ideal)) (x10 : (⟨S8x129x15, .f32⟩ : BufTy).Contents (Elt Ideal)) (x11 : (⟨S1, .f32⟩ : BufTy).Contents (Elt Ideal))
    (b : Fin 256) (h : Fin 8) (n : Fin 129) (d : Fin 64) :
    val_main_v84 (F := Ideal) x0 x1 x2 x3 x4 x5 x8 x9 x10 x11 (ix4 b h n d)
      = mix (attnP (sl3 x0 b) (sl3 x1 b) (mat x2) (vec x3) (rel2 x8) (adj3 (val_main_v69 (F := Ideal) x9 x10 x11))) (lin (sl3 x1 b) (mat x4) (vec x5)) h n d := by
  rw [val_main_v84_apply]
  show _ = ∑ m : Fin 129, (attnP (sl3 x0 b) (sl3 x1 b) (mat x2) (vec x3) (rel2 x8) (adj3 (val_main_v69 (F := Ideal) x9 x10 x11))) h n m * (lin (sl3 x1 b) (mat x4) (vec x5)) m (hd h d)
  refine Finset.sum_congr rfl fun k _ => ?_
  rw [lidx_v84_ix, ridx_v84_ix, v83_apply, v17_apply]

/-- The heads side by side: entry (b, n, k) is coordinate `dOf k` of head `hOf k` of the mixed values at row n. -/
theorem v86_ix (x0 : (⟨S256x129x512, .f32⟩ : BufTy).Contents (Elt Ideal)) (x1 : (⟨S256x129x512, .f32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x8 : (⟨S8x64, .f32⟩ : BufTy).Contents (Elt Ideal)) (x9 : (⟨S8x129x15, .f32⟩ : BufTy).Contents (Elt Ideal)) (x10 : (⟨S8x129x15, .f32⟩ : BufTy).Contents (Elt Ideal)) (x11 : (⟨S1, .f32⟩ : BufTy).Contents (Elt Ideal))
    (b : Fin 256) (n : Fin 129) (k : Fin 512) :
    val_main_v86 (F := Ideal) x0 x1 x2 x3 x4 x5 x8 x9 x10 x11 (ix3 b n k)
      = merged (mix (attnP (sl3 x0 b) (sl3 x1 b) (mat x2) (vec x3) (rel2 x8) (adj3 (val_main_v69 (F := Ideal) x9 x10 x11))) (lin (sl3 x1 b) (mat x4) (vec x5))) n k := by
  rw [val_main_v86_apply, idx_v86_ix, val_main_v85_apply, idx_v85_ix, v84_ix]
  rfl

/-- The output: entry (b, n, e) is `attnX` of batch element `b` under the reference's own mask. -/
theorem v90_apply (x0 : (⟨S256x129x512, .f32⟩ : BufTy).Contents (Elt Ideal)) (x1 : (⟨S256x129x512, .f32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S8x64, .f32⟩ : BufTy).Contents (Elt Ideal)) (x9 : (⟨S8x129x15, .f32⟩ : BufTy).Contents (Elt Ideal)) (x10 : (⟨S8x129x15, .f32⟩ : BufTy).Contents (Elt Ideal)) (x11 : (⟨S1, .f32⟩ : BufTy).Contents (Elt Ideal))
    (b : Fin 256) (n : Fin 129) (e : Fin 512) :
    val_main_v90 (F := Ideal) x0 x1 x2 x3 x4 x5 x6 x7 x8 x9 x10 x11 (ix3 b n e)
      = attnX (sl3 x0 b) (sl3 x1 b) (mat x2) (vec x3) (mat x4) (vec x5) (mat x6) (vec x7) (rel2 x8)
          (adj3 (val_main_v69 (F := Ideal) x9 x10 x11)) n e := by
  rw [val_main_v90_apply, Ideal.addf_def, val_main_v87_apply, v89_ix]
  show _ = (∑ k : Fin 512, (merged (mix (attnP (sl3 x0 b) (sl3 x1 b) (mat x2) (vec x3) (rel2 x8) (adj3 (val_main_v69 (F := Ideal) x9 x10 x11))) (lin (sl3 x1 b) (mat x4) (vec x5)))) n k * mat x6 e k) + vec x7 e
  congr 1
  refine Finset.sum_congr rfl fun k _ => ?_
  rw [lidx_v87_ix, ridx_v87_ix, v86_ix]
  rfl

end Cert.ReferenceIdeal.Stage

end
-- ==== Proof.lean ====
/-
  The kernel is a fused multi-head attention layer with a learned additive topology mask; the reference is the same
  layer in plain array operations. Over the extended reals both compute, per batch element, the probability tensor
  `attnP` and the output block `attnX` of Proof/Spec.lean, of the same arguments and of the same mask:

  * the kernel's run ends with its two result arrays at `G10` and `G11` of the arguments and of the mask its host
    stretch computed before the launch (Proof/Blocks.lean, over the payloads read at an index in Proof/PayLin.lean,
    Proof/PayProb.lean and Proof/PayOut.lean);
  * the reference's run ends with its two results at the stages read at an index in Proof/RefProb.lean and
    Proof/RefOut.lean, which are `G10` and `G11` of its arguments and of its own mask stage;
  * the two masks are one term (Proof/Mask.lean), and the arguments agree by hypothesis.

  The only literal the two sides spell differently is the score's scale, a product with 1/8 against a quotient by 8,
  equal on every extended real; no step needs the inputs finite. The ideal pass rewrote nothing, so `preserves` is
  `True`; the two kernel frames are the generated ones and the reference's frame is its generated run.
-/
import proofs.«162303_j45638322487491_1_alg».proof.Defs
import proofs.«162303_j45638322487491_1_alg».proof.Proof.Gen.Kernel
import proofs.«162303_j45638322487491_1_alg».proof.Proof.Gen.Kernel.Skeleton
import proofs.«162303_j45638322487491_1_alg».proof.Proof.Gen.Kernel.Launch
import proofs.«162303_j45638322487491_1_alg».proof.Proof.Gen.Kernel.Points
import proofs.«162303_j45638322487491_1_alg».proof.Proof.Gen.Kernel.Frame
import proofs.«162303_j45638322487491_1_alg».proof.Proof.Gen.KernelIdeal
import proofs.«162303_j45638322487491_1_alg».proof.Proof.Gen.KernelIdeal.Skeleton
import proofs.«162303_j45638322487491_1_alg».proof.Proof.Gen.KernelIdeal.Launch
import proofs.«162303_j45638322487491_1_alg».proof.Proof.Gen.KernelIdeal.Points
import proofs.«162303_j45638322487491_1_alg».proof.Proof.Gen.KernelIdeal.Frame
import proofs.«162303_j45638322487491_1_alg».proof.Proof.Gen.ReferenceIdeal
import proofs.«162303_j45638322487491_1_alg».proof.Proof.Gen.Pre_finite_inputs
import proofs.«162303_j45638322487491_1_alg».proof.Proof.Gen.KernelIdeal.Value
import proofs.«162303_j45638322487491_1_alg».proof.Proof.Gen.ReferenceIdeal.Run
import proofs.«162303_j45638322487491_1_alg».proof.Proof.Gen.ReferenceIdeal.Read
import proofs.«162303_j45638322487491_1_alg».proof.Proof.Spec
import proofs.«162303_j45638322487491_1_alg».proof.Proof.Mask
import proofs.«162303_j45638322487491_1_alg».proof.Proof.Blocks
import proofs.«162303_j45638322487491_1_alg».proof.Proof.RefProb
import proofs.«162303_j45638322487491_1_alg».proof.Proof.RefOut
import Idealize.ShloMosaic.Adequacy
import Idealize.ShloMosaic.Init

noncomputable section

namespace Cert.Proof

open Idealize.ShloMosaic Idealize.ShloMosaic.TcCoe Idealize.SL.Sem Idealize.ShloMosaic.ValueIdx Cert.Spec

/-! ## The reference's two results as whole-array functions of its arguments -/

/-- The reference's probability result is `G11` of its arguments and of its own mask stage: every index has
    coordinates (b, h, n, m), and there the stage is `attnP` of batch element `b`. -/
theorem ref_probs (x0 : (⟨Cert.ReferenceIdeal.S256x129x512, .f32⟩ : BufTy).Contents (Elt Ideal)) (x1 : (⟨Cert.ReferenceIdeal.S256x129x512, .f32⟩ : BufTy).Contents (Elt Ideal)) (x2 : (⟨Cert.ReferenceIdeal.S512x512, .f32⟩ : BufTy).Contents (Elt Ideal)) (x3 : (⟨Cert.ReferenceIdeal.S512, .f32⟩ : BufTy).Contents (Elt Ideal)) (x8 : (⟨Cert.ReferenceIdeal.S8x64, .f32⟩ : BufTy).Contents (Elt Ideal)) (x9 : (⟨Cert.ReferenceIdeal.S8x129x15, .f32⟩ : BufTy).Contents (Elt Ideal)) (x10 : (⟨Cert.ReferenceIdeal.S8x129x15, .f32⟩ : BufTy).Contents (Elt Ideal)) (x11 : (⟨Cert.ReferenceIdeal.S1, .f32⟩ : BufTy).Contents (Elt Ideal)) :
    Cert.ReferenceIdeal.Read.val_main_v83 (F := Ideal) x0 x1 x2 x3 x8 x9 x10 x11
      = G11 x0 x1 x2 x3 x8 (Cert.ReferenceIdeal.Read.val_main_v69 (F := Ideal) x9 x10 x11) := by
  funext i
  obtain ⟨b, h, n, k, rfl⟩ : ∃ (b : Fin 256) (h : Fin 8) (n k : Fin 129), i = ix4 b h n k := ⟨i 0, i 1, i 2, i 3, eq_ix4 i⟩
  exact Cert.ReferenceIdeal.Stage.v83_apply x0 x1 x2 x3 x8 x9 x10 x11 b h n k

/-- The reference's output result is `G10` of its arguments and of its own mask stage. -/
theorem ref_output (x0 : (⟨Cert.ReferenceIdeal.S256x129x512, .f32⟩ : BufTy).Contents (Elt Ideal)) (x1 : (⟨Cert.ReferenceIdeal.S256x129x512, .f32⟩ : BufTy).Contents (Elt Ideal)) (x2 : (⟨Cert.ReferenceIdeal.S512x512, .f32⟩ : BufTy).Contents (Elt Ideal)) (x3 : (⟨Cert.ReferenceIdeal.S512, .f32⟩ : BufTy).Contents (Elt Ideal)) (x4 : (⟨Cert.ReferenceIdeal.S512x512, .f32⟩ : BufTy).Contents (Elt Ideal)) (x5 : (⟨Cert.ReferenceIdeal.S512, .f32⟩ : BufTy).Contents (Elt Ideal)) (x6 : (⟨Cert.ReferenceIdeal.S512x512, .f32⟩ : BufTy).Contents (Elt Ideal)) (x7 : (⟨Cert.ReferenceIdeal.S512, .f32⟩ : BufTy).Contents (Elt Ideal)) (x8 : (⟨Cert.ReferenceIdeal.S8x64, .f32⟩ : BufTy).Contents (Elt Ideal)) (x9 : (⟨Cert.ReferenceIdeal.S8x129x15, .f32⟩ : BufTy).Contents (Elt Ideal)) (x10 : (⟨Cert.ReferenceIdeal.S8x129x15, .f32⟩ : BufTy).Contents (Elt Ideal)) (x11 : (⟨Cert.ReferenceIdeal.S1, .f32⟩ : BufTy).Contents (Elt Ideal)) :
    Cert.ReferenceIdeal.Read.val_main_v90 (F := Ideal) x0 x1 x2 x3 x4 x5 x6 x7 x8 x9 x10 x11
      = G10 x0 x1 x2 x3 x4 x5 x6 x7 x8 (Cert.ReferenceIdeal.Read.val_main_v69 (F := Ideal) x9 x10 x11) := by
  funext i
  obtain ⟨b, n, e, rfl⟩ : ∃ (b : Fin 256) (n : Fin 129) (e : Fin 512), i = ix3 b n e := ⟨i 0, i 1, i 2, eq_ix3 i⟩
  exact Cert.ReferenceIdeal.Stage.v90_apply x0 x1 x2 x3 x4 x5 x6 x7 x8 x9 x10 x11 b n e

/-! ## The claims -/

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- Both programs end with the output at `G10` and the probabilities at `G11` of the kernel's arguments and of the
    mask the kernel's host stretch computed: the kernel by its run, the reference by its run, the agreement of the
    arguments, and the masks being one term. -/
theorem algebraic : Cert.algebraic_KernelIdeal_ReferenceIdeal := by
  intro m ρ m' ρ' _ hagree
  refine ⟨_, _, Cert.KernelIdeal.Arr.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11⟩ := hagree c
    rw [Cert.ReferenceIdeal.Read.val_main_v90_eq, ref_output, a0, a1, a2, a3, a4, a5, a6, a7, a8, a9, a10, a11,
      Cert.MaskEq.mask_eq m c]
  · obtain ⟨a0, a1, a2, a3, a4, a5, a6, a7, a8, a9, a10, a11⟩ := hagree c
    rw [Cert.ReferenceIdeal.Read.val_main_v83_eq, ref_probs, a0, a1, a2, a3, a8, a9, a10, a11,
      Cert.MaskEq.mask_eq m c]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
